-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x7x7 : Shape := ⟨4, ![256, 1024, 7, 7]⟩
abbrev S768x50176 : Shape := ⟨2, ![768, 50176]⟩
abbrev S768 : Shape := ⟨1, ![768]⟩
abbrev S5x768 : Shape := ⟨2, ![5, 768]⟩
abbrev S5 : Shape := ⟨1, ![5]⟩
abbrev S_ : Shape := ⟨0, ![]⟩

class Facts : Prop where
  bcast_S_S256x1024x7x7 : S_.BroadcastsInDim S256x1024x7x7 (![] : Fin 0 → Fin S256x1024x7x7.rank)
  reducesTo_S256x1024x7x7_S_d0_1_2_3 : S256x1024x7x7.ReducesTo [0, 1, 2, 3] S_
  h_S_ : 0 < S_.numel
  bcast_S_S768x50176 : S_.BroadcastsInDim S768x50176 (![] : Fin 0 → Fin S768x50176.rank)
  reducesTo_S768x50176_S_d0_1 : S768x50176.ReducesTo [0, 1] S_
  bcast_S_S768 : S_.BroadcastsInDim S768 (![] : Fin 0 → Fin S768.rank)
  reducesTo_S768_S_d0 : S768.ReducesTo [0] S_
  bcast_S_S5x768 : S_.BroadcastsInDim S5x768 (![] : Fin 0 → Fin S5x768.rank)
  reducesTo_S5x768_S_d0_1 : S5x768.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S5 .f32) (main_v13 : IVec S_ 1) (main_v16 : IVec S5x768 1) : IVec S_ 1 :=
  let main_c_5 : IVec S_ 1 := constantI S_ 1 1#1
  let main_v17 : IVec S_ 1 := (fun x v => Host.reduce IntOp.andi x v reducesTo_S5x768_S_d0_1 h_S_) main_v16 main_c_5
  let main_v18 : IVec S_ 1 := andi main_v13 main_v17
  let main_v19 : FVec F S5 .f32 := Host.absf main_arg4
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S256x1024x7x7 .f32) (main_arg1 : FVec F S768x50176 .f32) (main_arg2 : FVec F S768 .f32) (main_arg3 : FVec F S5x768 .f32) (main_arg4 : FVec F S5 .f32) : IVec S_ 1 :=
  let main_v0 : FVec F S256x1024x7x7 .f32 := Host.absf main_arg0
  let main_cst : FVec F S_ .f32 := constant S_ .f32 0x7F800000#32
  let main_v1 : FVec F S256x1024x7x7 .f32 := broadcastInDim S256x1024x7x7 ![] bcast_S_S256x1024x7x7 main_cst
  let main_v2 : IVec S256x1024x7x7 1 := cmpf .olt main_v0 main_v1
  let main_c : IVec S_ 1 := constantI S_ 1 1#1
  let main_v3 : IVec S_ 1 := (fun x v => Host.reduce IntOp.andi x v reducesTo_S256x1024x7x7_S_d0_1_2_3 h_S_) main_v2 main_c
  let main_v4 : FVec F S768x50176 .f32 := Host.absf main_arg1
  let main_cst_0 : FVec F S_ .f32 := constant S_ .f32 0x7F800000#32
  let main_v5 : FVec F S768x50176 .f32 := broadcastInDim S768x50176 ![] bcast_S_S768x50176 main_cst_0
  let main_v6 : IVec S768x50176 1 := cmpf .olt main_v4 main_v5
  let main_c_1 : IVec S_ 1 := constantI S_ 1 1#1
  let main_v7 : IVec S_ 1 := (fun x v => Host.reduce IntOp.andi x v reducesTo_S768x50176_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S5x768 .f32 := Host.absf main_arg3
  let main_cst_4 : FVec F S_ .f32 := constant S_ .f32 0x7F800000#32
  let main_v15 : FVec F S5x768 .f32 := broadcastInDim S5x768 ![] bcast_S_S5x768 main_cst_4
  let main_v16 : IVec S5x768 1 := cmpf .olt main_v14 main_v15
  fn_part1 (F := F) main_arg4 main_v13 main_v16
-- ==== Kernel.lean ====
abbrev S256x1024x7x7 : Shape := ⟨4, ![256, 1024, 7, 7]⟩
abbrev S768x50176 : Shape := ⟨2, ![768, 50176]⟩
abbrev S768 : Shape := ⟨1, ![768]⟩
abbrev S5x768 : Shape := ⟨2, ![5, 768]⟩
abbrev S5 : Shape := ⟨1, ![5]⟩
abbrev S32x1024x7x7 : Shape := ⟨4, ![32, 1024, 7, 7]⟩
abbrev S32x1024x7 : Shape := ⟨3, ![32, 1024, 7]⟩
abbrev S32x1024x7x1 : Shape := ⟨4, ![32, 1024, 7, 1]⟩
abbrev S32x1024x1 : Shape := ⟨3, ![32, 1024, 1]⟩
abbrev S32x1024x1x1 : Shape := ⟨4, ![32, 1024, 1, 1]⟩
abbrev S256x50176 : Shape := ⟨2, ![256, 50176]⟩
abbrev S1x768 : Shape := ⟨2, ![1, 768]⟩
abbrev S1x5 : Shape := ⟨2, ![1, 5]⟩
abbrev S256x5 : Shape := ⟨2, ![256, 5]⟩
abbrev S256x3584 : Shape := ⟨2, ![256, 3584]⟩
abbrev S768x3584 : Shape := ⟨2, ![768, 3584]⟩
abbrev S256x768 : Shape := ⟨2, ![256, 768]⟩

abbrev nBuf : Space → Nat
  | .hbm => 10
  | .vmem => 13
  | .smem => 0
  | _ => 0

abbrev bufTy : (tb : Table) → Fin (tcTables nBuf tb) → BufTy
  | .hbm, ⟨0, _⟩ => ⟨S256x1024x7x7, .f32⟩
  | .hbm, ⟨1, _⟩ => ⟨S768x50176, .f32⟩
  | .hbm, ⟨2, _⟩ => ⟨S768, .f32⟩
  | .hbm, ⟨3, _⟩ => ⟨S5x768, .f32⟩
  | .hbm, ⟨4, _⟩ => ⟨S5, .f32⟩
  | .hbm, ⟨5, _⟩ => ⟨S256x1024x7x7, .f32⟩
  | .hbm, ⟨6, _⟩ => ⟨S256x50176, .f32⟩
  | .hbm, ⟨7, _⟩ => ⟨S1x768, .f32⟩
  | .hbm, ⟨8, _⟩ => ⟨S1x5, .f32⟩
  | .hbm, ⟨9, _⟩ => ⟨S256x5, .f32⟩
  | .local _ .vmem, ⟨0, _⟩ => ⟨S32x1024x7x7, .f32⟩
  | .local _ .vmem, ⟨1, _⟩ => ⟨S32x1024x7x7, .f32⟩
  | .local _ .vmem, ⟨2, _⟩ => ⟨S32x1024x7x7, .f32⟩
  | .local _ .vmem, ⟨3, _⟩ => ⟨S32x1024x7x7, .f32⟩
  | .local _ .vmem, ⟨4, _⟩ => ⟨S256x3584, .f32⟩
  | .local _ .vmem, ⟨5, _⟩ => ⟨S256x3584, .f32⟩
  | .local _ .vmem, ⟨6, _⟩ => ⟨S768x3584, .f32⟩
  | .local _ .vmem, ⟨7, _⟩ => ⟨S768x3584, .f32⟩
  | .local _ .vmem, ⟨8, _⟩ => ⟨S1x768, .f32⟩
  | .local _ .vmem, ⟨9, _⟩ => ⟨S5x768, .f32⟩
  | .local _ .vmem, ⟨10, _⟩ => ⟨S1x5, .f32⟩
  | .local _ .vmem, ⟨11, _⟩ => ⟨S256x5, .f32⟩
  | .local _ .vmem, ⟨12, _⟩ => ⟨S256x768, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x1024x7x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![14], ![false]⟩

def k1_cond2 (i : grid1.Coords) : BitVec 1 :=
  let arg0 : BitVec 32 := BitVec.ofNat 32 (i 0).val
  let c13_i32 : BitVec 32 := 13#32
  let v14 : BitVec 1 := Scalar.cmpi .eq arg0 c13_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S768x3584 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S32x1024x7x7_S32x1024x7x7_0_0_0_0 : ∀ a, (![0, 0, 0, 0] : Fin 4 → Nat) a + S32x1024x7x7.size a ≤ S32x1024x7x7.size a
  h_S32x1024x7x7 : 0 < S32x1024x7x7.numel
  reduces_S32x1024x7x7_S32x1024x7 : S32x1024x7x7.Reduces [3] S32x1024x7
  shapeCasts_S32x1024x7_S32x1024x7x1 : S32x1024x7.ShapeCasts S32x1024x7x1
  reduces_S32x1024x7x1_S32x1024x1 : S32x1024x7x1.Reduces [2] S32x1024x1
  shapeCasts_S32x1024x1_S32x1024x1x1 : S32x1024x1.ShapeCasts S32x1024x1x1
  broadcasts_S32x1024x1x1_S32x1024x7x7 : S32x1024x1x1.Broadcasts S32x1024x7x7
  shapeCasts_S256x1024x7x7_S256x50176 : S256x1024x7x7.ShapeCasts S256x50176
  shapeCasts_S768_S1x768 : S768.ShapeCasts S1x768
  shapeCasts_S5_S1x5 : S5.ShapeCasts S1x5
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x3584_S256x3584_0_0 : ∀ a, (![0, 0] : Fin 2 → Nat) a + S256x3584.size a ≤ S256x3584.size a
  h_S256x3584 : 0 < S256x3584.numel
  shapeCasts_S256x3584_S256x3584 : S256x3584.ShapeCasts S256x3584
  bitsLt_bf16_f32 : FTy.bits .bf16 < FTy.bits .f32
  inb_S768x3584_S768x3584_0_0 : ∀ a, (![0, 0] : Fin 2 → Nat) a + S768x3584.size a ≤ S768x3584.size a
  h_S768x3584 : 0 < S768x3584.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S5x768_S5x768_0_0 : ∀ a, (![0, 0] : Fin 2 → Nat) a + S5x768.size a ≤ S5x768.size a
  h_S5x768 : 0 < S5x768.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S256x5 : S1x5.Broadcasts S256x5
  inb_S256x5_S256x5_0_0 : ∀ a, (![0, 0] : Fin 2 → Nat) a + S256x5.size a ≤ S256x5.size a
  h_S256x5 : 0 < S256x5.numel
  dot_S256x3584_S768x3584_S256x768_1_1_0_0_n_n_wf : DotDims.WF S256x3584 S768x3584 S256x768 [1] [1] [0] [0] [] []
  dot_S256x768_S5x768_S256x5_1_1_0_0_n_n_wf : DotDims.WF S256x768 S5x768 S256x5 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024x7x7.size a ≤ S256x1024x7x7.size a
  hwx0_0 : ∀ i : grid0.Coords, EltTy.bits .f32 = 32 ∨ (Rect.block (s := S256x1024x7x7) S32x1024x7x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024x7x7.size a ≤ S256x1024x7x7.size a
  hwx0_1 : ∀ i : grid0.Coords, EltTy.bits .f32 = 32 ∨ (Rect.block (s := S256x1024x7x7) S32x1024x7x7.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3584.size a ≤ S256x50176.size a
  hwx1_0 : ∀ i : grid1.Coords, EltTy.bits .f32 = 32 ∨ (Rect.block (s := S256x50176) S256x3584.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S768x3584.size a ≤ S768x50176.size a
  hwx1_1 : ∀ i : grid1.Coords, EltTy.bits .f32 = 32 ∨ (Rect.block (s := S768x50176) S768x3584.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x768.size a ≤ S5x768.size a
  hwx1_3 : ∀ i : grid1.Coords, EltTy.bits .f32 = 32 ∨ (Rect.block (s := S5x768) S5x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x5.size a ≤ S256x5.size a
  hwx1_5 : ∀ i : grid1.Coords, EltTy.bits .f32 = 32 ∨ (Rect.block (s := S256x5) S256x5.size (cc1_transform_5 i) (hinb1_5 i)).WholeWords (EltTy.packing .f32)

variable [Facts₀]

def dot_S256x3584_S768x3584_S256x768_1_1_0_0_n_n : DotDims S256x3584 S768x3584 S256x768 where
  lhsContracting := [1]
  rhsContracting := [1]
  lhsNonContracting := [0]
  rhsNonContracting := [0]
  lhsBatch := []
  rhsBatch := []
  wf := dot_S256x3584_S768x3584_S256x768_1_1_0_0_n_n_wf
def dot_S256x768_S5x768_S256x5_1_1_0_0_n_n : DotDims S256x768 S5x768 S256x5 where
  lhsContracting := [1]
  rhsContracting := [1]
  lhsNonContracting := [0]
  rhsNonContracting := [0]
  lhsBatch := []
  rhsBatch := []
  wf := dot_S256x768_S5x768_S256x5_1_1_0_0_n_n_wf

abbrev win0_0 : Pipeline.Window sig grid0 :=
  Pipeline.Window.ofSpec (Memref.whole main_arg0) S32x1024x7x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1024x7x7.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x3584.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S768x3584.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S5x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S256x5.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S256x1024x7x7 : Shape := ⟨4, ![256, 1024, 7, 7]⟩
abbrev S768x50176 : Shape := ⟨2, ![768, 50176]⟩
abbrev S768 : Shape := ⟨1, ![768]⟩
abbrev S5x768 : Shape := ⟨2, ![5, 768]⟩
abbrev S5 : Shape := ⟨1, ![5]⟩
abbrev S_ : Shape := ⟨0, ![]⟩
abbrev S256x1024 : Shape := ⟨2, ![256, 1024]⟩
abbrev S256x1024x1x1 : Shape := ⟨4, ![256, 1024, 1, 1]⟩
abbrev S256x50176 : Shape := ⟨2, ![256, 50176]⟩
abbrev S50176x768 : Shape := ⟨2, ![50176, 768]⟩
abbrev S256x768 : Shape := ⟨2, ![256, 768]⟩
abbrev S1x768 : Shape := ⟨2, ![1, 768]⟩
abbrev S768x5 : Shape := ⟨2, ![768, 5]⟩
abbrev S256x5 : Shape := ⟨2, ![256, 5]⟩
abbrev S1x5 : Shape := ⟨2, ![1, 5]⟩

abbrev nBuf : Space → Nat
  | .hbm => 24
  | .vmem => 0
  | .smem => 0
  | _ => 0

abbrev bufTy : (tb : Table) → Fin (tcTables nBuf tb) → BufTy
  | .hbm, ⟨0, _⟩ => ⟨S256x1024x7x7, .f32⟩
  | .hbm, ⟨1, _⟩ => ⟨S768x50176, .f32⟩
  | .hbm, ⟨2, _⟩ => ⟨S768, .f32⟩
  | .hbm, ⟨3, _⟩ => ⟨S5x768, .f32⟩
  | .hbm, ⟨4, _⟩ => ⟨S5, .f32⟩
  | .hbm, ⟨5, _⟩ => ⟨S_, .f32⟩
  | .hbm, ⟨6, _⟩ => ⟨S256x1024, .f32⟩
  | .hbm, ⟨7, _⟩ => ⟨S256x1024x1x1, .f32⟩
  | .hbm, ⟨8, _⟩ => ⟨S256x1024x7x7, .f32⟩
  | .hbm, ⟨9, _⟩ => ⟨S256x1024x7x7, .f32⟩
  | .hbm, ⟨10, _⟩ => ⟨S256x50176, .f32⟩
  | .hbm, ⟨11, _⟩ => ⟨S50176x768, .f32⟩
  | .hbm, ⟨12, _⟩ => ⟨S256x768, .f32⟩
  | .hbm, ⟨13, _⟩ => ⟨S1x768, .f32⟩
  | .hbm, ⟨14, _⟩ => ⟨S256x768, .f32⟩
  | .hbm, ⟨15, _⟩ => ⟨S256x768, .f32⟩
  | .hbm, ⟨16, _⟩ => ⟨S_, .f32⟩
  | .hbm, ⟨17, _⟩ => ⟨S256x768, .f32⟩
  | .hbm, ⟨18, _⟩ => ⟨S256x768, .f32⟩
  | .hbm, ⟨19, _⟩ => ⟨S768x5, .f32⟩
  | .hbm, ⟨20, _⟩ => ⟨S256x5, .f32⟩
  | .hbm, ⟨21, _⟩ => ⟨S1x5, .f32⟩
  | .hbm, ⟨22, _⟩ => ⟨S256x5, .f32⟩
  | .hbm, ⟨23, _⟩ => ⟨S256x5, .f32⟩
  | _, _ => ⟨S256x1024x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S256x1024x7x7_S256x1024_d2_3 : S256x1024x7x7.ReducesTo [2, 3] S256x1024
  h_S_ : 0 < S_.numel
  bcast_S256x1024_S256x1024x1x1_0_1 : S256x1024.BroadcastsInDim S256x1024x1x1 (![0, 1] : Fin 2 → Fin S256x1024x1x1.rank)
  bcast_S256x1024x1x1_S256x1024x7x7_0_1_2_3 : S256x1024x1x1.BroadcastsInDim S256x1024x7x7 (![0, 1, 2, 3] : Fin 4 → Fin S256x1024x7x7.rank)
  shapeCasts_S256x1024x7x7_S256x50176 : S256x1024x7x7.ShapeCasts S256x50176
  transposes_S768x50176_S50176x768_1_0 : S768x50176.Transposes [1, 0] S50176x768
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  bcast_S_S256x768 : S_.BroadcastsInDim S256x768 (![] : Fin 0 → Fin S256x768.rank)
  transposes_S5x768_S768x5_1_0 : S5x768.Transposes [1, 0] S768x5
  bcast_S5_S1x5_1 : S5.BroadcastsInDim S1x5 (![1] : Fin 1 → Fin S1x5.rank)
  bcast_S1x5_S256x5_0_1 : S1x5.BroadcastsInDim S256x5 (![0, 1] : Fin 2 → Fin S256x5.rank)
  dot_S256x50176_S50176x768_S256x768_1_0_0_1_n_n_wf : DotDims.WF S256x50176 S50176x768 S256x768 [1] [0] [0] [1] [] []
  dot_S256x768_S768x5_S256x5_1_0_0_1_n_n_wf : DotDims.WF S256x768 S768x5 S256x5 [1] [0] [0] [1] [] []

variable [Facts₀]

def dot_S256x50176_S50176x768_S256x768_1_0_0_1_n_n : DotDims S256x50176 S50176x768 S256x768 where
  lhsContracting := [1]
  rhsContracting := [0]
  lhsNonContracting := [0]
  rhsNonContracting := [1]
  lhsBatch := []
  rhsBatch := []
  wf := dot_S256x50176_S50176x768_S256x768_1_0_0_1_n_n_wf
def dot_S256x768_S768x5_S256x5_1_0_0_1_n_n : DotDims S256x768 S768x5 S256x5 where
  lhsContracting := [1]
  rhsContracting := [0]
  lhsNonContracting := [0]
  rhsNonContracting := [1]
  lhsBatch := []
  rhsBatch := []
  wf := dot_S256x768_S768x5_S256x5_1_0_0_1_n_n_wf

class Facts : Prop extends Facts₀ where

variable [Facts]
-- ==== Proof.Pcam.lean ====
/-
  The first kernel region: each grid point holds 32 batch rows of the feature map, and the body stores, for every
  (batch, channel) pair of the block, the 7 x 7 spatial slab multiplied by its own largest entry. Stated here, at the
  contents `V` the region is entered with: a window's block at a point, what the body leaves in the output window's
  buffer (the body's one stored value of the input block), the body's run, the region's proof data and its obligation at
  every point. Nothing is kept between points, so the region's invariant is the scoped rest and the generator register.
-/
import proofs.«124790_j42588895707592_1_alg».proof.Proof.Gen.KernelIdeal.Launch
import proofs.«124790_j42588895707592_1_alg».proof.Proof.Gen.KernelIdeal.Skeleton
import proofs.«124790_j42588895707592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The offsets of the body's one load and one store are all zero: both go through the whole buffer. -/
theorem zeroOff4 : (![0, 0, 0, 0] : Fin S32x1024x7x7.rank → Nat) = fun _ => 0 := by
  funext a; match a with | ⟨0, _⟩ => rfl | ⟨1, _⟩ => rfl | ⟨2, _⟩ => rfl | ⟨3, _⟩ => rfl

/-- A store through the whole buffer covers it. -/
theorem wholeStore_covers (p : Vec F S32x1024x7x7 .f32) (y : S32x1024x7x7.Idx) :
    ∃ pc ∈ ([⟨Rect.unit (s := S32x1024x7x7) ![0, 0, 0, 0] S32x1024x7x7.size inb_S32x1024x7x7_S32x1024x7x7_0_0_0_0, p⟩] : List (View.Piece (Elt F) S32x1024x7x7 .f32)), y ∈ pc.1.set :=
  ⟨_, List.mem_singleton_self _, View.mem_set_unit_zero zeroOff4 inb_S32x1024x7x7_S32x1024x7x7_0_0_0_0 y⟩

/-- The body on whole staging memrefs: the input's buffer at `x0` and the output's at anything run to the input's
    unchanged and the output's at the block scaled by its channel maxima (the one stored value, of `x0`). -/
theorem pcam_body (c : Dev nD) (E : Set ℕ) (i : grid0.Coords) (arg1 : Memref sig .tc .vmem S32x1024x7x7 .f32) (harg1 : arg1.IsWhole)
    (arg2 : Memref sig .tc .vmem S32x1024x7x7 .f32) (harg2 : arg2.IsWhole) (x0 : Vec F S32x1024x7x7 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__pcam_kernel i arg1 harg1 arg2 harg2) K := by
  simp only [cc0__pcam_kernel_eq_skeleton]; unfold cc0__pcam_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (wholeStore_covers _),
    View.canon_unit_zero zeroOff4, View.readAt_eq_ld, View.ld_unit_zero zeroOff4]

/-- The region's proof data on core `c`: the arrays as the region finds them; after the body at point `t` the
    input's buffer still at its block and the output's at the scaled block; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_in (c : Dev nD) (t : Fin cfg0.N) : (dat0 V c).after 0 t = iblk0 V c 0 t := by dsimp only [dat0]
theorem dat0_after_out (c : Dev nD) (t : Fin cfg0.N) : (dat0 V c).after 1 t = k0_pay1 (iblk0 V c 0 t) := by dsimp only [dat0]

/-- The input window's current buffer holds its block at every point: it is fetched at every point. -/
theorem dat0_before_in (c : Dev nD) (t : Fin cfg0.N) (d) : (dat0 V c).before 0 t d = iblk0 V c 0 t :=
  ((dat0 V c).before_in_eq_fetched 0 rfl (fun _ => rfl) (fun _ _ _ => rfl)
      (fun t => by rw [dat0_after_in]; unfold Dat.blockOf iblk0; rw [dat0_A]; try rfl) t d).trans
    (by unfold Dat.fetched Dat.blockOf iblk0; rw [dat0_A]; try rfl)

/-- The body at any point: the input's memref holds its block, so the body's run applies; the invariant and the
    core's dues pass through unread. -/
theorem pcam_point (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t))) := by
  unfold bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (pcam_body c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The region's body obligation, at every point. -/
theorem pcam_obligation (c : Dev nD) : BodyObligation (dat0 (F := F) V c) (defs₀ (F := F)) Variants.none () Set.univ := fun t => by
  rw [bigSep_W0, bigSep_W0]
  exact pcam_point V c t

end Cert.KernelIdeal.Hand

end
-- ==== Proof.MmData.lean ====
/-
  The second kernel region: 14 grid points along the contraction of 50176 = 14 · 3584 positions. At each point the body
  multiplies the 256 x 3584 block of the flattened scaled features with the 768 x 3584 block of the first weight matrix
  and adds the product into a 256 x 768 scratch buffer it keeps between points: zeroed at the first point, read and
  written back at every point. At the last point it adds the first bias, cuts off below at zero, multiplies with the
  second weight matrix, adds the second bias and stores the 256 x 5 result, the only store into the output window.
  Stated here, at the contents `V` the region is entered with: the windows' blocks, the scratch after each point
  (`accAt`, by recursion on the point), the invariant that carries it, and the region's proof data.
-/
import proofs.«124790_j42588895707592_1_alg».proof.Proof.Gen.KernelIdeal.Launch
import proofs.«124790_j42588895707592_1_alg».proof.Proof.Gen.KernelIdeal.Skeleton
import proofs.«124790_j42588895707592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's five operand arrays as it finds them, each named at its literal type: the flattened scaled features,
    the first weight matrix, the first bias as one row, the second weight matrix, the second bias as one row. -/
abbrev flatIn (c : Dev nD) : (⟨S256x50176, .f32⟩ : BufTy).Contents (Elt F) := V c main_v1
abbrev w1In (c : Dev nD) : (⟨S768x50176, .f32⟩ : BufTy).Contents (Elt F) := V c main_arg1
abbrev b1In (c : Dev nD) : (⟨S1x768, .f32⟩ : BufTy).Contents (Elt F) := V c main_v2
abbrev w2In (c : Dev nD) : (⟨S5x768, .f32⟩ : BufTy).Contents (Elt F) := V c main_arg3
abbrev b2In (c : Dev nD) : (⟨S1x5, .f32⟩ : BufTy).Contents (Elt F) := V c main_v3

/-- The scratch buffer the body keeps between points. -/
abbrev accRef : Memref sig .tc .vmem S256x768 .f32 := Memref.whole cc1_scratch0

/-- The scratch after the body at point `n`: at the first point the product of that point's blocks added to the
    zeros just stored; afterwards the product added to what the point before left. -/
def accAt (c : Dev nD) : (n : ℕ) → n < cfg1.N → Vec F S256x768 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (accAt c n (Nat.lt_of_succ_lt h))

theorem accAt_zero (c : Dev nD) (h : 0 < cfg1.N) :
    accAt V c 0 h = k1_pay2 (iblk1 V c 0 ⟨0, h⟩) (iblk1 V c 1 ⟨0, h⟩) (k1_pay1 (F := F)) := rfl
theorem accAt_succ (c : Dev nD) (n : ℕ) (h : n + 1 < cfg1.N) :
    accAt V c (n + 1) h = k1_pay2 (iblk1 V c 0 ⟨n + 1, h⟩) (iblk1 V c 1 ⟨n + 1, h⟩) (accAt V c n (Nat.lt_of_succ_lt h)) := rfl

/-- The core's scoped buffers that are neither a staging buffer of this region nor its scratch (the first region's
    four staging buffers), each whole at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The region's invariant before position `n`: before the first point the scratch holds anything (the scoped rest and
    the generator register); afterwards the scratch holds what the point before left, the other scoped buffers
    anything, the generator register some state. -/
def accInv (c : Dev nD) : (n : ℕ) → n ≤ cfg1.N → sProp 𝕄
  | 0, _ => Pipeline.ΦA spec1 c
  | n + 1, hn => iprop(otherScoped (F := F) c ∗ owns (c : Thread nD τ) accRef fullShare (accAt V c n hn) ∗ (∃ r, prngReg c r))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = iprop(otherScoped (F := F) c ∗ owns (c : Thread nD τ) accRef fullShare (accAt V c n hn) ∗ (∃ r, prngReg c r)) := rfl
theorem accInv_pos (c : Dev nD) (n : ℕ) (h : n ≤ cfg1.N) (hz : n ≠ 0) :
    accInv V c n h = iprop(otherScoped (F := F) c ∗ owns (c : Thread nD τ) accRef fullShare (accAt V c (n - 1) (by omega)) ∗ (∃ r, prngReg c r)) := by
  cases n with
  | zero => exact absurd rfl hz
  | succ n => rfl

/-- The region's proof data on core `c`: the arrays as the region finds them; after the body at point `t` each input's
    buffer still at its block and the output's at the last point's result of the scratch then (at the other points the
    body stores nothing there and the buffer is not written back); the invariant carrying the scratch; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (accAt V c t.val t.isLt) (iblk1 V c 2 t) (iblk1 V c 3 t) (iblk1 V c 4 t)
  Φ t := accInv V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = iblk1 V c 0 t := by dsimp only [dat1]
theorem dat1_after1 (c : Dev nD) (t : Fin cfg1.N) : (dat1 V c).after 1 t = iblk1 V c 1 t := by dsimp only [dat1]
theorem dat1_after2 (c : Dev nD) (t : Fin cfg1.N) : (dat1 V c).after 2 t = iblk1 V c 2 t := by dsimp only [dat1]
theorem dat1_after3 (c : Dev nD) (t : Fin cfg1.N) : (dat1 V c).after 3 t = iblk1 V c 3 t := by dsimp only [dat1]
theorem dat1_after4 (c : Dev nD) (t : Fin cfg1.N) : (dat1 V c).after 4 t = iblk1 V c 4 t := by dsimp only [dat1]
theorem dat1_after5 (c : Dev nD) (t : Fin cfg1.N) :
    (dat1 V c).after 5 t = k1_pay3 (accAt V c t.val t.isLt) (iblk1 V c 2 t) (iblk1 V c 3 t) (iblk1 V c 4 t) := by dsimp only [dat1]
theorem dat1_inv (c : Dev nD) (t : Fin cfg1.N) : (dat1 V c).Φ t.castSucc = accInv V c t.val (Nat.le_of_lt t.isLt) := by
  dsimp only [dat1]; simp only [Fin.coe_castSucc]

end Cert.KernelIdeal.Hand

end
-- ==== Proof.Mm.lean ====
/-
  The second region's body, run in each of its three control cases. The two branches of the body test the position
  along the contraction: the first is taken at position 0 only (the scratch is zeroed before it is read), the second at
  position 13 only (the result is computed from the scratch and stored). So a point is the first (zero, then
  accumulate), the last (accumulate, then finish) or one in between (accumulate). Each run is stated over whole memrefs
  and arbitrary contents of the operands it reads; what it leaves is the body's stored values of those contents.
-/
import proofs.«124790_j42588895707592_1_alg».proof.Proof.Gen.KernelIdeal.Launch
import proofs.«124790_j42588895707592_1_alg».proof.Proof.Gen.KernelIdeal.Skeleton
import proofs.«124790_j42588895707592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«124790_j42588895707592_1_alg».proof.Proof.MmData
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two branch conditions, decided at each of the 14 positions. -/
theorem isFirst_iff : ∀ v : Fin 14, (Scalar.cmpi .ne (Scalar.extui (Scalar.cmpi .eq (BitVec.ofNat 32 v.val) 0#32) : BitVec 32) 0#32 = 1#1 ↔ v.val = 0) := by decide
theorem isLast_iff : ∀ v : Fin 14, (Scalar.cmpi .ne (Scalar.extui (Scalar.cmpi .eq (BitVec.ofNat 32 v.val) 13#32) : BitVec 32) 0#32 = 1#1 ↔ v.val = 13) := by decide

/-- The first branch's condition at a grid coordinate. -/
abbrev firstCond (i : grid1.Coords) : Prop :=
  Scalar.cmpi .ne (Scalar.extui (Scalar.cmpi .eq (BitVec.ofNat 32 (i 0).val) 0#32) : BitVec 32) 0#32 = 1#1

theorem firstCond_iff (i : grid1.Coords) : firstCond i ↔ (i 0).val = 0 := isFirst_iff (i 0)
theorem lastCond_iff (i : grid1.Coords) : k1_cond2 i = 1#1 ↔ (i 0).val = 13 := by
  unfold k1_cond2; exact isLast_iff (i 0)

/-- Every load and store of the body goes through a whole buffer: its offsets are zero. -/
theorem zeroOff2 : (![0, 0] : Fin 2 → Nat) = fun _ => 0 := by
  funext a; match a with | ⟨0, _⟩ => rfl | ⟨1, _⟩ => rfl

/-- A store through the whole scratch buffer, last, covers it whatever was stored before. -/
theorem accStore_covers (p : Vec F S256x768 .f32) (L : List (View.Piece (Elt F) S256x768 .f32)) (y : S256x768.Idx) :
    ∃ pc ∈ ((⟨Rect.unit (s := S256x768) ![0, 0] S256x768.size inb_S256x768_S256x768_0_0, p⟩ : View.Piece (Elt F) S256x768 .f32) :: L), y ∈ pc.1.set :=
  ⟨_, List.mem_cons_self, View.mem_set_unit_zero zeroOff2 inb_S256x768_S256x768_0_0 y⟩

/-- A store through the whole output buffer covers it. -/
theorem outStore_covers (p : Vec F S256x5 .f32) (y : S256x5.Idx) :
    ∃ pc ∈ ([⟨Rect.unit (s := S256x5) ![0, 0] S256x5.size inb_S256x5_S256x5_0_0, p⟩] : List (View.Piece (Elt F) S256x5 .f32)), y ∈ pc.1.set :=
  ⟨_, List.mem_singleton_self _, View.mem_set_unit_zero zeroOff2 inb_S256x5_S256x5_0_0 y⟩

set_option maxHeartbeats 1000000 in
/-- A point in between: the scratch at `a` becomes the product of the two blocks added to `a`. -/
theorem mm_mid (c : Dev nD) (E : Set ℕ) (i : grid1.Coords)
    (arg1 : Memref sig .tc .vmem S256x3584 .f32) (harg1 : arg1.IsWhole) (arg2 : Memref sig .tc .vmem S768x3584 .f32) (harg2 : arg2.IsWhole)
    (arg3 : Memref sig .tc .vmem S1x768 .f32) (harg3 : arg3.IsWhole) (arg4 : Memref sig .tc .vmem S5x768 .f32) (harg4 : arg4.IsWhole)
    (arg5 : Memref sig .tc .vmem S1x5 .f32) (harg5 : arg5.IsWhole) (arg6 : Memref sig .tc .vmem S256x5 .f32) (harg6 : arg6.IsWhole)
    (arg7 : Memref sig .tc .vmem S256x768 .f32) (harg7 : arg7.IsWhole)
    (x : Vec F S256x3584 .f32) (w : Vec F S768x3584 .f32) (K : PUnit → sProp 𝕄)
    (hc1 : ¬ firstCond i) (hc2 : ¬ k1_cond2 i = 1#1) (a : Vec F S256x768 .f32) :
    iprop(owns (c : Thread nD τ) arg1 fullShare x ∗ owns (c : Thread nD τ) arg2 fullShare w ∗ owns (c : Thread nD τ) arg7 fullShare a
        ∗ (iprop(owns (c : Thread nD τ) arg1 fullShare x ∗ owns (c : Thread nD τ) arg2 fullShare w ∗ owns (c : Thread nD τ) arg7 fullShare (k1_pay2 x w a)) -∗ K ⟨⟩))
      ⊢ wp frame (wpE (defs₀ (F := F)) Variants.none c none) E (cc1__mm_kernel i arg1 harg1 arg2 harg2 arg3 harg3 arg4 harg4 arg5 harg5 arg6 harg6 arg7 harg7) K := by
  simp only [cc1__mm_kernel_eq_skeleton]; unfold cc1__mm_kernel_skel
  unfold owns
  iintro ⟨⟨%f1, %hf1, H1⟩, ⟨%f2, %hf2, H2⟩, ⟨%f7, %hf7, H7⟩, Hk⟩
  subst hf1; subst hf2; subst hf7
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  rw [View.read_writes_eq_canon _ _ _ (accStore_covers _ _), View.canon_unit_zero (S := S256x768) zeroOff2]
  simp only [View.readAt_eq_ld, View.ld_unit_zero (S := S256x3584) zeroOff2, View.ld_unit_zero (S := S768x3584) zeroOff2, View.ld_unit_zero (S := S256x768) zeroOff2]

set_option maxHeartbeats 1000000 in
/-- The first point: the scratch, at anything, is zeroed and then holds the product of the two blocks added to the zeros. -/
theorem mm_first (c : Dev nD) (E : Set ℕ) (i : grid1.Coords)
    (arg1 : Memref sig .tc .vmem S256x3584 .f32) (harg1 : arg1.IsWhole) (arg2 : Memref sig .tc .vmem S768x3584 .f32) (harg2 : arg2.IsWhole)
    (arg3 : Memref sig .tc .vmem S1x768 .f32) (harg3 : arg3.IsWhole) (arg4 : Memref sig .tc .vmem S5x768 .f32) (harg4 : arg4.IsWhole)
    (arg5 : Memref sig .tc .vmem S1x5 .f32) (harg5 : arg5.IsWhole) (arg6 : Memref sig .tc .vmem S256x5 .f32) (harg6 : arg6.IsWhole)
    (arg7 : Memref sig .tc .vmem S256x768 .f32) (harg7 : arg7.IsWhole)
    (x : Vec F S256x3584 .f32) (w : Vec F S768x3584 .f32) (K : PUnit → sProp 𝕄)
    (hc1 : firstCond i) (hc2 : ¬ k1_cond2 i = 1#1) :
    iprop(owns (c : Thread nD τ) arg1 fullShare x ∗ owns (c : Thread nD τ) arg2 fullShare w ∗ (∃ d, owns (c : Thread nD τ) arg7 fullShare d)
        ∗ (iprop(owns (c : Thread nD τ) arg1 fullShare x ∗ owns (c : Thread nD τ) arg2 fullShare w ∗ owns (c : Thread nD τ) arg7 fullShare (k1_pay2 x w (k1_pay1 (F := F)))) -∗ K ⟨⟩))
      ⊢ wp frame (wpE (defs₀ (F := F)) Variants.none c none) E (cc1__mm_kernel i arg1 harg1 arg2 harg2 arg3 harg3 arg4 harg4 arg5 harg5 arg6 harg6 arg7 harg7) K := by
  simp only [cc1__mm_kernel_eq_skeleton]; unfold cc1__mm_kernel_skel
  unfold owns
  iintro ⟨⟨%f1, %hf1, H1⟩, ⟨%f2, %hf2, H2⟩, ⟨%d7, %f7, -, H7⟩, Hk⟩
  subst hf1; subst hf2
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H7
  ipureintro
  sl_unfold_words
  rw [View.read_writes_eq_canon _ _ _ (accStore_covers _ _), View.canon_cons_unit_zero (S := S256x768) zeroOff2]
  simp only [View.readAt_eq_ld, View.ld_unit_zero (S := S256x3584) zeroOff2, View.ld_unit_zero (S := S768x3584) zeroOff2, View.ld_unit_zero (S := S256x768) zeroOff2, View.readCov_unit_zero (S := S256x768) _ zeroOff2]

set_option maxHeartbeats 1000000 in
/-- The last point: the scratch at `a` becomes the product added to `a`, and the output buffer, at anything, holds
    the result computed from that and the three small operands. -/
theorem mm_last (c : Dev nD) (E : Set ℕ) (i : grid1.Coords)
    (arg1 : Memref sig .tc .vmem S256x3584 .f32) (harg1 : arg1.IsWhole) (arg2 : Memref sig .tc .vmem S768x3584 .f32) (harg2 : arg2.IsWhole)
    (arg3 : Memref sig .tc .vmem S1x768 .f32) (harg3 : arg3.IsWhole) (arg4 : Memref sig .tc .vmem S5x768 .f32) (harg4 : arg4.IsWhole)
    (arg5 : Memref sig .tc .vmem S1x5 .f32) (harg5 : arg5.IsWhole) (arg6 : Memref sig .tc .vmem S256x5 .f32) (harg6 : arg6.IsWhole)
    (arg7 : Memref sig .tc .vmem S256x768 .f32) (harg7 : arg7.IsWhole)
    (x : Vec F S256x3584 .f32) (w : Vec F S768x3584 .f32) (K : PUnit → sProp 𝕄)
    (hc1 : ¬ firstCond i) (hc2 : k1_cond2 i = 1#1) (a : Vec F S256x768 .f32)
    (r1 : Vec F S1x768 .f32) (w2 : Vec F S5x768 .f32) (r2 : Vec F S1x5 .f32) :
    iprop(owns (c : Thread nD τ) arg1 fullShare x ∗ owns (c : Thread nD τ) arg2 fullShare w ∗ owns (c : Thread nD τ) arg7 fullShare a
        ∗ owns (c : Thread nD τ) arg3 fullShare r1 ∗ owns (c : Thread nD τ) arg4 fullShare w2 ∗ owns (c : Thread nD τ) arg5 fullShare r2
        ∗ (∃ d, owns (c : Thread nD τ) arg6 fullShare d)
        ∗ (iprop(owns (c : Thread nD τ) arg1 fullShare x ∗ owns (c : Thread nD τ) arg2 fullShare w ∗ owns (c : Thread nD τ) arg7 fullShare (k1_pay2 x w a)
            ∗ owns (c : Thread nD τ) arg3 fullShare r1 ∗ owns (c : Thread nD τ) arg4 fullShare w2 ∗ owns (c : Thread nD τ) arg5 fullShare r2
            ∗ owns (c : Thread nD τ) arg6 fullShare (k1_pay3 (k1_pay2 x w a) r1 w2 r2)) -∗ K ⟨⟩))
      ⊢ wp frame (wpE (defs₀ (F := F)) Variants.none c none) E (cc1__mm_kernel i arg1 harg1 arg2 harg2 arg3 harg3 arg4 harg4 arg5 harg5 arg6 harg6 arg7 harg7) K := by
  simp only [cc1__mm_kernel_eq_skeleton]; unfold cc1__mm_kernel_skel
  unfold owns
  iintro ⟨⟨%f1, %hf1, H1⟩, ⟨%f2, %hf2, H2⟩, ⟨%f7, %hf7, H7⟩, ⟨%f3, %hf3, H3⟩, ⟨%f4, %hf4, H4⟩, ⟨%f5, %hf5, H5⟩, ⟨%d6, %f6, -, H6⟩, Hk⟩
  subst hf1; subst hf2; subst hf7; subst hf3; subst hf4; subst hf5
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H7]
  · iexists _; isplitr
    swap; · iexact H7
    ipureintro
    sl_unfold_words
    rw [View.read_writes_eq_canon _ _ _ (accStore_covers _ _), View.canon_unit_zero (S := S256x768) zeroOff2]
    simp only [View.readAt_eq_ld, View.ld_unit_zero (S := S256x3584) zeroOff2, View.ld_unit_zero (S := S768x3584) zeroOff2, View.ld_unit_zero (S := S256x768) zeroOff2]
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (outStore_covers _), View.canon_unit_zero (S := S256x5) zeroOff2]
  simp only [View.readAt_eq_ld, View.ld_unit_zero (S := S256x3584) zeroOff2, View.ld_unit_zero (S := S768x3584) zeroOff2, View.ld_unit_zero (S := S256x768) zeroOff2, View.ld_unit_zero (S := S1x768) zeroOff2, View.ld_unit_zero (S := S5x768) zeroOff2,
    View.ld_unit_zero (S := S1x5) zeroOff2, View.readCov_unit_zero (S := S256x768) _ zeroOff2]

/-! ## The obligation at every point -/

variable (V : (c : Dev nD) → (b : Ref sig .tc) → Buf (Elt F) ((c : Thread nD τ).loc b))

/-- A grid point's one coordinate is its position. -/
theorem coord_val : ∀ t : Fin grid1.N, ((grid1.coords t) 0).val = t.val := by decide +kernel

/-- Each input window's current buffer holds its block at every point, fetched there or not: the two large operands
    are fetched at every point, the three small ones at the first only and their block index never moves. -/
theorem mm_before0 (c : Dev nD) (t : Fin cfg1.N) (d) : (dat1 V c).before 0 t d = iblk1 V c 0 t :=
  ((dat1 V c).before_in_eq_fetched 0 rfl (fun _ => rfl) (fun _ _ _ => rfl)
      (fun t => by rw [dat1_after0]; unfold Dat.blockOf iblk1; rw [dat1_A]; try rfl) t d).trans
    (by unfold Dat.fetched Dat.blockOf iblk1; rw [dat1_A]; try rfl)
theorem mm_before1 (c : Dev nD) (t : Fin cfg1.N) (d) : (dat1 V c).before 1 t d = iblk1 V c 1 t :=
  ((dat1 V c).before_in_eq_fetched 1 rfl (fun _ => rfl) (fun _ _ _ => rfl)
      (fun t => by rw [dat1_after1]; unfold Dat.blockOf iblk1; rw [dat1_A]; try rfl) t d).trans
    (by unfold Dat.fetched Dat.blockOf iblk1; rw [dat1_A]; try rfl)
theorem mm_before2 (c : Dev nD) (t : Fin cfg1.N) (d) : (dat1 V c).before 2 t d = iblk1 V c 2 t :=
  ((dat1 V c).before_in_eq_fetched 2 rfl (fun _ => rfl) (fun _ _ _ => rfl)
      (fun t => by rw [dat1_after2]; unfold Dat.blockOf iblk1; rw [dat1_A]; try rfl) t d).trans
    (by unfold Dat.fetched Dat.blockOf iblk1; rw [dat1_A]; try rfl)
theorem mm_before3 (c : Dev nD) (t : Fin cfg1.N) (d) : (dat1 V c).before 3 t d = iblk1 V c 3 t :=
  ((dat1 V c).before_in_eq_fetched 3 rfl (fun _ => rfl) (fun _ _ _ => rfl)
      (fun t => by rw [dat1_after3]; unfold Dat.blockOf iblk1; rw [dat1_A]; try rfl) t d).trans
    (by unfold Dat.fetched Dat.blockOf iblk1; rw [dat1_A]; try rfl)
theorem mm_before4 (c : Dev nD) (t : Fin cfg1.N) (d) : (dat1 V c).before 4 t d = iblk1 V c 4 t :=
  ((dat1 V c).before_in_eq_fetched 4 rfl (fun _ => rfl) (fun _ _ _ => rfl)
      (fun t => by rw [dat1_after4]; unfold Dat.blockOf iblk1; rw [dat1_A]; try rfl) t d).trans
    (by unfold Dat.fetched Dat.blockOf iblk1; rw [dat1_A]; try rfl)

/-- Away from the last point the body stores nothing into the output window and the window is not written back. -/
theorem out_idle (t : Fin cfg1.N) (h : t.val ≠ 13) : cfg1.idle 5 (cfg1.grid.coords t) = true := by
  show (!(k1_cond2 (grid1.coords t) == 1#1)) = true
  rw [Bool.not_eq_true', beq_eq_false_iff_ne]
  intro hc
  have := (lastCond_iff (grid1.coords t)).mp hc
  rw [coord_val] at this
  exact h this
theorem out_noflush (t : Fin cfg1.N) (h : t.val ≠ 13) : (cfg1.win 5).flush t = false := by
  have hN : t.val < 14 := lt_of_lt_of_eq t.isLt N_1
  cases hf : (cfg1.win 5).flush t
  · rfl
  · exfalso; have := (flush1_5 t).mp hf; omega
/-- At the last point it does store there. -/
theorem out_live (t : Fin cfg1.N) (h : t.val = 13) : cfg1.idle 5 (cfg1.grid.coords t) = false := by
  show (!(k1_cond2 (grid1.coords t) == 1#1)) = false
  rw [Bool.not_eq_false', beq_iff_eq]
  exact (lastCond_iff (grid1.coords t)).mpr ((coord_val t).trans h)

/-- The invariant's first form opened: the scoped rest is the four other scoped buffers and the scratch, each at some
    contents. -/
theorem inv_start (c : Dev nD) :
    (Pipeline.ΦA spec1 c : sProp 𝕄) ⊢ iprop(otherScoped (F := F) c ∗ (∃ d, owns (c : Thread nD τ) accRef fullShare d) ∗ (∃ r, prngReg c r)) := by
  unfold Pipeline.ΦA otherScoped; rw [scopedRest1_eq]
  iintro ⟨⟨H0, H1, H2, H3, ⟨%f, Hs⟩⟩, Hg⟩
  isplitl [H0 H1 H2 H3]
  · isplitl [H0]; · iexact H0
    isplitl [H1]; · iexact H1
    isplitl [H2]; · iexact H2
    iexact H3
  isplitl [Hs]
  · iexists f; rw [owns_whole]; iexact Hs
  iexact Hg
/-- And closed again, the scratch's contents forgotten. -/
theorem inv_forget (c : Dev nD) (X : Vec F S256x768 .f32) :
    iprop(otherScoped (F := F) c ∗ owns (c : Thread nD τ) accRef fullShare X ∗ (∃ r, prngReg c r)) ⊢ (Pipeline.ΦA spec1 c : sProp 𝕄) := by
  unfold Pipeline.ΦA otherScoped; rw [scopedRest1_eq, owns_whole]
  iintro ⟨⟨H0, H1, H2, H3⟩, Hs, Hg⟩
  isplitr [Hg]
  · isplitl [H0]; · iexact H0
    isplitl [H1]; · iexact H1
    isplitl [H2]; · iexact H2
    isplitl [H3]; · iexact H3
    iexists _; iexact Hs
  iexact Hg

/-- Before the first point the invariant is the scoped rest and the generator register. -/
theorem mm_inv_in (c : Dev nD) : (Pipeline.ΦA spec1 c : sProp 𝕄) ⊢ (dat1 V c).Φ 0 := by
  rw [show (dat1 V c).Φ 0 = accInv V c 0 (Nat.zero_le _) from rfl, accInv_zero V c 0 _ rfl]
/-- After the last point it gives them back. -/
theorem mm_inv_out (c : Dev nD) : (dat1 V c).Φ (Fin.last cfg1.N) ⊢ (Pipeline.ΦA spec1 c : sProp 𝕄) := by
  have hN : cfg1.N = 14 := N_1
  rw [show (dat1 V c).Φ (Fin.last cfg1.N) = accInv V c (Fin.last cfg1.N).val (Nat.le_of_lt_succ (Fin.last cfg1.N).isLt) from rfl,
    accInv_pos V c _ _ (by rw [Fin.val_last]; omega)]
  exact inv_forget c _

set_option maxHeartbeats 1000000 in
/-- The body at any point, by the three cases of the point. -/
theorem mm_point (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ (dat1 V c).leavesExact 5 t)) := by
  unfold bodyAt1
  have hN : t.val < 14 := lt_of_lt_of_eq t.isLt N_1
  have hco : ((grid1.coords t) 0).val = t.val := coord_val t
  simp only [mm_before0, mm_before1, mm_before2, mm_before3, mm_before4]
  rw [show (dat1 V c).owesAt () t.succ = (dat1 V c).owesAt () t.castSucc from rfl,
    show (dat1 V c).Φ t.succ = accInv V c (t.val + 1) t.isLt from rfl, accInv_succ,
    dat1_after0, dat1_after1, dat1_after2, dat1_after3, dat1_after4, dat1_inv]
  obtain ⟨tv, ht⟩ := t
  cases tv with
  | zero =>
    have hc1 : firstCond (grid1.coords ⟨0, ht⟩) := (firstCond_iff _).mpr hco
    have hc2 : ¬ k1_cond2 (grid1.coords ⟨0, ht⟩) = 1#1 := fun h => by
      have := (lastCond_iff _).mp h; rw [hco] at this; exact absurd this (show ¬ (0 : ℕ) = 13 by decide)
    rw [Dat.leavesExact_idle (dat1 V c) 5 ⟨0, ht⟩ (out_idle _ (show (0 : ℕ) ≠ 13 by decide)) (out_noflush _ (show (0 : ℕ) ≠ 13 by decide))]
    rw [accInv_zero V c _ _ rfl, accAt_zero]
    iintro ⟨Hinv, Ho, ⟨%d0, H0⟩, ⟨%d1, H1⟩, ⟨%d2, H2⟩, ⟨%d3, H3⟩, ⟨%d4, H4⟩, H5⟩
    have hopen := inv_start (F := F) c
    ihave Hopen := hopen $$ Hinv
    icases Hopen with ⟨Hrest, Hs, Hg⟩
    iapply (mm_first c Set.univ (grid1.coords ⟨0, ht⟩) _ _ _ _ _ _ _ _ _ _ _ _ _ _ (iblk1 V c 0 ⟨0, ht⟩) (iblk1 V c 1 ⟨0, ht⟩) _ hc1 hc2)
    isplitl [H0]; · iexact H0
    isplitl [H1]; · iexact H1
    isplitl [Hs]; · iexact Hs
    iintro ⟨H0, H1, Hs⟩
    isplitl [Hrest Hs Hg]
    · isplitl [Hrest]; · iexact Hrest
      isplitl [Hs]; · iexact Hs
      iexact Hg
    isplitl [Ho]; · iexact Ho
    isplitl [H0]; · iexact H0
    isplitl [H1]; · iexact H1
    isplitl [H2]; · iexact H2
    isplitl [H3]; · iexact H3
    isplitl [H4]; · iexact H4
    iexact H5
  | succ n =>
    have hne : ¬ firstCond (grid1.coords ⟨n + 1, ht⟩) := fun h => by
      have := (firstCond_iff _).mp h; rw [hco] at this; exact absurd this (Nat.succ_ne_zero n)
    rw [accInv_succ V c n _, accAt_succ]
    by_cases hl : n + 1 = 13
    · have hc2 : k1_cond2 (grid1.coords ⟨n + 1, ht⟩) = 1#1 := (lastCond_iff _).mpr (hco.trans hl)
      rw [show (dat1 V c).leavesExact 5 ⟨n + 1, ht⟩ = owns (c : Thread nD τ) (st1_5 ⟨n + 1, ht⟩) fullShare ((dat1 V c).after 5 ⟨n + 1, ht⟩) from by
        unfold Dat.leavesExact; rw [out_live _ hl], dat1_after5, accAt_succ]
      iintro ⟨⟨Hrest, Hs, Hg⟩, Ho, ⟨%d0, H0⟩, ⟨%d1, H1⟩, ⟨%d2, H2⟩, ⟨%d3, H3⟩, ⟨%d4, H4⟩, ⟨%d5, H5⟩⟩
      iapply (mm_last c Set.univ (grid1.coords ⟨n + 1, ht⟩) _ _ _ _ _ _ _ _ _ _ _ _ _ _ (iblk1 V c 0 ⟨n + 1, ht⟩) (iblk1 V c 1 ⟨n + 1, ht⟩) _ hne hc2
        (accAt V c n (Nat.lt_of_succ_lt ht)) (iblk1 V c 2 ⟨n + 1, ht⟩) (iblk1 V c 3 ⟨n + 1, ht⟩) (iblk1 V c 4 ⟨n + 1, ht⟩))
      isplitl [H0]; · iexact H0
      isplitl [H1]; · iexact H1
      isplitl [Hs]; · iexact Hs
      isplitl [H2]; · iexact H2
      isplitl [H3]; · iexact H3
      isplitl [H4]; · iexact H4
      isplitl [H5]; · iexists _; iexact H5
      iintro ⟨H0, H1, Hs, H2, H3, H4, H5⟩
      isplitl [Hrest Hs Hg]
      · isplitl [Hrest]; · iexact Hrest
        isplitl [Hs]; · iexact Hs
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k1_cond2 (grid1.coords ⟨n + 1, ht⟩) = 1#1 := fun h => by
        have := (lastCond_iff _).mp h; rw [hco] at this; exact hl this
      rw [Dat.leavesExact_idle (dat1 V c) 5 ⟨n + 1, ht⟩ (out_idle _ hl) (out_noflush _ hl)]
      iintro ⟨⟨Hrest, Hs, Hg⟩, Ho, ⟨%d0, H0⟩, ⟨%d1, H1⟩, ⟨%d2, H2⟩, ⟨%d3, H3⟩, ⟨%d4, H4⟩, H5⟩
      iapply (mm_mid c Set.univ (grid1.coords ⟨n + 1, ht⟩) _ _ _ _ _ _ _ _ _ _ _ _ _ _ (iblk1 V c 0 ⟨n + 1, ht⟩) (iblk1 V c 1 ⟨n + 1, ht⟩) _ hne hc2
        (accAt V c n (Nat.lt_of_succ_lt ht)))
      isplitl [H0]; · iexact H0
      isplitl [H1]; · iexact H1
      isplitl [Hs]; · iexact Hs
      iintro ⟨H0, H1, Hs⟩
      isplitl [Hrest Hs Hg]
      · isplitl [Hrest]; · iexact Hrest
        isplitl [Hs]; · iexact Hs
        iexact Hg
      isplitl [Ho]; · iexact Ho
      isplitl [H0]; · iexact H0
      isplitl [H1]; · iexact H1
      isplitl [H2]; · iexact H2
      isplitl [H3]; · iexact H3
      isplitl [H4]; · iexact H4
      iexact H5

/-- The region's body obligation, at every point. -/
theorem mm_obligation (c : Dev nD) : BodyObligation (dat1 (F := F) V c) (defs₀ (F := F)) Variants.none () Set.univ := fun t => by
  rw [bigSep_W1, bigSep_W1]
  exact mm_point V c t

end Cert.KernelIdeal.Hand

end
-- ==== Proof.Launch.lean ====
/-
  The whole program run: the first region, the three host reshapes, the second region. Between two items a core holds
  every unscoped buffer at contents that are a fold from the launch memory: a region leaves its arrays at what its
  write-backs leave and every other buffer as it found it, a host stretch at what its operations compute. Beside the
  buffers ride the generator register at some state and the core's dues, none. Each region is entered by splitting its
  arrays out of the unscoped buffers and left by putting them back; its invariant takes the scoped rest and the
  generator register in and gives them back (the second region's forgets its scratch's contents at the end). The run
  ends with every unscoped buffer at the fold's last contents, which is what every claim about the program reads.
-/
import proofs.«124790_j42588895707592_1_alg».proof.Proof.Gen.KernelIdeal.Launch
import proofs.«124790_j42588895707592_1_alg».proof.Proof.Gen.KernelIdeal.Skeleton
import proofs.«124790_j42588895707592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«124790_j42588895707592_1_alg».proof.Proof.Gen.KernelIdeal.Regions
import proofs.«124790_j42588895707592_1_alg».proof.Proof.Pcam
import proofs.«124790_j42588895707592_1_alg».proof.Proof.MmData
import proofs.«124790_j42588895707592_1_alg».proof.Proof.Mm
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m (c, b)
/-- The same read at the TensorCore's references: what the first region is entered with. -/
abbrev E0 : (c : Dev nD) → (b : Ref sig .tc) → Buf (Elt F) ((c : Thread nD τ).loc b) := fun c b => W0 m c b
/-- After the first region: its arrays at what its write-backs leave, every other buffer as it was. -/
def W1 (c : Dev nD) : Valuation τ sig (Elt F) :=
  Pipeline.withArrays spec0 c (W0 m c) fun w => (dat0 (E0 m) c).arrAt w cfg0.N
abbrev X1 : (c : Dev nD) → (b : Ref sig .tc) → Buf (Elt F) ((c : Thread nD τ).loc b) := fun c b => W1 m c b
/-- After the three reshapes. -/
abbrev W2 : Dev nD → Valuation τ sig (Elt F) := fun c => StableHlo.after hostOps1 (W1 m c)
/-- The same read at the TensorCore's references: what the second region is entered with. -/
abbrev E1 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (E1 m) c).arrAt w cfg1.N
abbrev X3 : (c : Dev nD) → (b : Ref sig .tc) → Buf (Elt F) ((c : Thread nD τ).loc b) := fun c b => W3 m c b

theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-! ## The proof data of both regions, the thread state, the segments -/

/-- Both regions' proof data, each at the contents its region is entered with. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev noVariants : Variants := Variants.none
/-- No core owes another anything: no level is assigned. -/
abbrev noPairs : GSem nD τ sig → Finset Unit := fun _ => ∅
abbrev noLevel : GSem nD τ sig → Unit → ℕ := fun _ _ => 0

/-- What rides beside the buffers through every item: the generator register at some state, and no dues. -/
abbrev riding (c : Dev nD) : sProp 𝕄 :=
  iprop((∃ r, prngReg c r) ∗ ∃ W, owes (c : Thread nD τ) (0 : CellTallies nD τ sig Unit) W)

/-- Every unscoped buffer at the last contents, the generator register at some state: what the run ends with, beside no dues. -/
abbrev lastState (c : Dev nD) : sProp 𝕄 :=
  iprop(StableHlo.held (c : Thread nD τ) (Pipeline.ucRefs τ sig) (W3 m c) ∗ ∃ r, prngReg c r)

theorem hostOps1_noFresh : (hostOps1 : List (HloOp τ sig (Elt F))).Forall fun op => op.fresh = ∅ := by
  simp only [List.Forall]; repeat' constructor

/-- The three reshapes as a segment, from the contents the first region leaves. -/
abbrev reshapes : Pipeline.HostSeg (Name := ℕ) (U := UR sig nD τ) (pcfgs (F := F)) defs₀ noVariants noPairs noLevel :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_noFresh) op h) (W1 m) riding

set_option backward.isDefEq.respectTransparency.types false in
/-- The first region as a segment: entered with every unscoped buffer at the launch contents, left with them at `W1`. -/
def region0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (pcam_obligation (E0 m) c).loose
  hwaits := Pipeline.hwaits_of_owed_zero _ _ _ _ noPairs noLevel 0 fun _ _ => rfl
  pre c := iprop(StableHlo.held (c : Thread nD τ) (Pipeline.ucRefs τ sig) (W0 m c) ∗ riding c)
  post c := iprop(StableHlo.held (c : Thread nD τ) (Pipeline.ucRefs τ sig) (W1 m c) ∗ riding c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X1 m c) ((pdats m 0 c).arrAt · cfg0.N) (fun w => (W1_arr m c w).symm)
      (fun b hb => W1_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region as a segment: entered with every unscoped buffer at `W2`, left with them at `W3`; its
    invariant starts as the scoped rest and the generator register and ends giving them back, the scratch forgotten. -/
def region1 : Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (mm_obligation (E1 m) c).loose
  hwaits := Pipeline.hwaits_of_owed_zero _ _ _ _ noPairs noLevel 1 fun _ _ => rfl
  pre c := iprop(StableHlo.held (c : Thread nD τ) (Pipeline.ucRefs τ sig) (W2 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hstart := mm_inv_in (E1 m) c
    unfold Pipeline.ΦA at hstart
    rw [show (pdats m 1 c).Φ 0 = (dat1 (E1 m) c).Φ 0 from rfl]
    iintro ⟨Hp, -, Hr⟩
    iapply hstart
    isplitl [Hr]; · iexact Hr
    iexact Hp
  hout c := by
    have hend := mm_inv_out (E1 m) c
    unfold Pipeline.ΦA at hend
    rw [Pipeline.ownSems0_none, show (pdats m 1 c).Φ (Fin.last _) = (dat1 (E1 m) c).Φ (Fin.last cfg1.N) from rfl]
    iintro H
    ihave H' := hend $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X3 m c) ((pdats m 1 c).arrAt · cfg1.N) (fun w => (W3_arr m c w).symm)
      (fun b hb => W3_of_ne m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three items in order. -/
abbrev items : List (Pipeline.Seg (pcfgs (F := F)) adm (pdats m) () defs₀ noVariants noPairs noLevel) :=
  [ .region (region0 m), .host (reshapes m), .region (region1 m) ]

/-- The program is the run of its items. -/
theorem main_items (c : Dev nD) : main (F := F) c = Pipeline.Seg.run (items m) := (main_chain c).trans (by chain_rfl)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of the program on the TensorCores
    terminates without a fault, and in every final memory each unscoped buffer of each core holds the fold's last
    contents. -/
theorem program_run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := lastState m)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Kept.lean ====
/-
  The argument arrays at the end of the run are as launched: walking the fold of contents back from its last step, no
  host reshape writes an argument, and a region leaves an argument either untouched (it is none of the region's arrays)
  or as found (it is an array the region only reads).
-/
import proofs.«124790_j42588895707592_1_alg».proof.Proof.Gen.KernelIdeal.Launch
import proofs.«124790_j42588895707592_1_alg».proof.Proof.Gen.KernelIdeal.Skeleton
import proofs.«124790_j42588895707592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«124790_j42588895707592_1_alg».proof.Proof.Launch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No reshape writes a buffer other than its own result. -/
theorem W2_of (c : Dev nD) (r : Ref sig .tc) (h : r ∉ hostOps1_W) : W2 m c (Proc.devRef .tc r) = W1 m c (Proc.devRef .tc r) :=
  StableHlo.after_of_writes_sub hostOps1 _ hostOps1_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of m c main_arg0 (by decide)
    _ = m ((c : Thread nD τ).loc main_arg0) := (W1_arr m c 0).trans (((dat0 (E0 m) c).arrAt_in 0 rfl _).trans (dat0_A (E0 m) c 0))

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (E1 m) c).arrAt_in 1 rfl _).trans (dat1_A (E1 m) c 1))
    _ = W1 m c (Proc.devRef .tc main_arg1) := W2_of m c main_arg1 (by decide)
    _ = m ((c : Thread nD τ).loc main_arg1) := W1_of_ne m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = m ((c : Thread nD τ).loc main_arg2) := W1_of_ne m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 3).trans (((dat1 (E1 m) c).arrAt_in 3 rfl _).trans (dat1_A (E1 m) c 3))
    _ = W1 m c (Proc.devRef .tc main_arg3) := W2_of m c main_arg3 (by decide)
    _ = m ((c : Thread nD τ).loc main_arg3) := W1_of_ne m c main_arg3 (by decide)

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of m c main_arg4 (by decide)
    _ = m ((c : Thread nD τ).loc main_arg4) := W1_of_ne m c main_arg4 (by decide)

/-- THE FRAME: every weakly fair execution terminates without a fault and every final memory holds each argument as
    launched. -/
theorem program_frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (held_ref main_arg0 (by decide))).trans (W3_main_arg0 m c),
     (h c _ (held_ref main_arg1 (by decide))).trans (W3_main_arg1 m c),
     (h c _ (held_ref main_arg2 (by decide))).trans (W3_main_arg2 m c),
     (h c _ (held_ref main_arg3 (by decide))).trans (W3_main_arg3 m c),
     (h c _ (held_ref main_arg4 (by decide))).trans (W3_main_arg4 m c)⟩) (program_run m ρ)

end Cert.KernelIdeal.Hand

end
-- ==== Proof.Spec.lean ====
/-
  What the two programs compute, as one function of the five argument arrays over the extended reals.

  For a batch row `b` and a channel `ch`, let `M b ch` be the largest of the 49 entries `x[b, ch, ·, ·]`. The scaled
  feature map is `x[b, ch, h, w] · M b ch`; flattened row-major over (channel, height, width) it is a row of 50176
  entries, entry `q` coming from channel `q / 49`, height `q / 7 % 7`, width `q % 7`. A hidden unit `k` of row `b` is
  `max (Σ_q flat[b, q] · W1[k, q] + b1[k]) 0`, and the result at `(b, j)` is `Σ_k hidden[b, k] · W2[j, k] + b2[j]`.
  No step of this needs an entry to be finite: sums are regrouped, never distributed over.
-/
import Idealize.ShloMosaic.PureOps.Ideal
import Idealize.ShloMosaic.Lib.ValueIdx

noncomputable section

open scoped BigOperators

namespace Cert.Head

open Idealize.ShloMosaic Idealize.ShloMosaic.ValueIdx

/-- The argument arrays' and the result's shapes. -/
abbrev SFeat : Shape := ⟨4, ![256, 1024, 7, 7]⟩
abbrev SW1 : Shape := ⟨2, ![768, 50176]⟩
abbrev SB1 : Shape := ⟨1, ![768]⟩
abbrev SW2 : Shape := ⟨2, ![5, 768]⟩
abbrev SB2 : Shape := ⟨1, ![5]⟩
abbrev SOut : Shape := ⟨2, ![256, 5]⟩

/-- The channel, height and width a position of a flattened row comes from. -/
def chanOf (q : Fin 50176) : Fin 1024 := ⟨q.val / 49, by have := q.isLt; omega⟩
def rowOf (q : Fin 50176) : Fin 7 := ⟨q.val / 7 % 7, by omega⟩
def colOf (q : Fin 50176) : Fin 7 := ⟨q.val % 7, by omega⟩

/-- The largest of the 49 spatial entries of batch row `b`, channel `ch`. -/
def chanMax (x : SFeat.Idx → EReal) (b : Fin 256) (ch : Fin 1024) : EReal :=
  Finset.univ.sup fun p : Fin 7 × Fin 7 => x (ix4 b ch p.1 p.2)

/-- The feature map scaled by its channel maxima, at batch row `b`, channel `ch`, height `h`, width `w`. -/
def scaled (x : SFeat.Idx → EReal) (b : Fin 256) (ch : Fin 1024) (h w : Fin 7) : EReal :=
  x (ix4 b ch h w) * chanMax x b ch

/-- The scaled feature map flattened: row `b`, position `q`. -/
def flat (x : SFeat.Idx → EReal) (b : Fin 256) (q : Fin 50176) : EReal :=
  scaled x b (chanOf q) (rowOf q) (colOf q)

/-- The first layer before its bias: the whole contraction over the 50176 positions. -/
def pre (x : SFeat.Idx → EReal) (w1 : SW1.Idx → EReal) (b : Fin 256) (k : Fin 768) : EReal :=
  ∑ q : Fin 50176, flat x b q * w1 (ix2 k q)

/-- A hidden unit: the first layer with its bias, cut off below at zero. -/
def hidden (x : SFeat.Idx → EReal) (w1 : SW1.Idx → EReal) (b1 : SB1.Idx → EReal) (b : Fin 256) (k : Fin 768) : EReal :=
  max (pre x w1 b k + b1 (ix1 k)) 0

/-- A logit: the second layer over the 768 hidden units, with its bias. -/
def logit (x : SFeat.Idx → EReal) (w1 : SW1.Idx → EReal) (b1 : SB1.Idx → EReal) (w2 : SW2.Idx → EReal) (b2 : SB2.Idx → EReal)
    (b : Fin 256) (j : Fin 5) : EReal :=
  (∑ k : Fin 768, hidden x w1 b1 b k * w2 (ix2 j k)) + b2 (ix1 j)

/-- The result array. -/
def G (x : SFeat.Idx → EReal) (w1 : SW1.Idx → EReal) (b1 : SB1.Idx → EReal) (w2 : SW2.Idx → EReal) (b2 : SB2.Idx → EReal) :
    SOut.Idx → EReal :=
  fun i => logit x w1 b1 w2 b2 ⟨(i 0).val, (i 0).isLt⟩ ⟨(i 1).val, (i 1).isLt⟩

end Cert.Head

end
-- ==== Proof.PcamValue.lean ====
/-
  What the first region leaves in its output array, at the ideal instance: entry (b, ch, h, w) of the array after all 8
  write-backs is the feature entry times the largest entry of its 7 x 7 slab.

  Three steps. The stored value of a block, entry by entry: the two maxima from minus infinity, one along each spatial
  axis, are suprema, and the two nested suprema over 7 entries are one over the 49 pairs; the unit axes added between
  them and the spreading back over the slab move no value. A block entry at point t is the array entry 32 t rows
  further down the batch axis. The 8 blocks cover the array, batch row b lying in block b / 32, and each block written
  back is the block of one function of the array index, so the array ends holding that function.
-/
import proofs.«124790_j42588895707592_1_alg».proof.Proof.Spec
import proofs.«124790_j42588895707592_1_alg».proof.Proof.Pcam
import Idealize.ShloMosaic.Lib.ValueIdx
import Idealize.ShloMosaic.Lib.ValueLayout
import Idealize.ShloMosaic.Lib.Pipeline.Value
import Idealize.ShloMosaic.PureOps.Ideal.Laws
import Mathlib.Data.Finset.Lattice.Prod

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The stored value of a block, entry by entry -/

/-- The bit pattern of minus infinity denotes the least extended real. -/
theorem negInf_f32 : FloatOps.ofBits (F := Ideal) .f32 0xFF800000#32 = (⊥ : EReal) := by
  show Ideal.ofBits .f32 0xFF800000#32 = ⊥
  simp [Ideal.ofBits, Ideal.ieee]

/-- A fold of max from the least element is the supremum. -/
theorem fold_max_bot {ι : Type} (s : Finset ι) (f : ι → EReal) : s.fold max (⊥ : EReal) f = s.sup f := rfl

/-- The maximum along the last axis, from minus infinity: the supremum of the 7 entries of a row. -/
theorem red3_apply (v : Vec Ideal S32x1024x7x7 .f32) (p : Fin 32) (ch : Fin 1024) (h : Fin 7) :
    multiReduction (F := Ideal) .maximumf [3] S32x1024x7 v 0xFF800000#32 reduces_S32x1024x7x7_S32x1024x7 (.inl rfl) rfl (ix3 p ch h)
      = Finset.univ.sup fun w : Fin 7 => v (ix4 p ch h w) := by
  refine (Ideal.multiReduction_maximumf_single v _ _ _ _ _).trans ?_
  rw [negInf_f32, fold_max_bot]
  refine congrArg (Finset.univ.sup) (funext fun w => congrArg v ?_)
  funext a
  apply Fin.ext
  match a with
  | ⟨0, _⟩ => rfl
  | ⟨1, _⟩ => rfl
  | ⟨2, _⟩ => rfl
  | ⟨3, _⟩ => rfl

/-- The maximum along the third axis of a block whose last axis has one entry: the supremum down a column. -/
theorem red2_apply (v : FVec Ideal S32x1024x7x1 .f32) (p : Fin 32) (ch : Fin 1024) (z : Fin 1) :
    multiReduction (F := Ideal) .maximumf [2] S32x1024x1 v 0xFF800000#32 reduces_S32x1024x7x1_S32x1024x1 (.inl rfl) rfl (ix3 p ch z)
      = Finset.univ.sup fun h : Fin 7 => v (ix4 p ch h z) := by
  refine (Ideal.multiReduction_maximumf_single v _ _ _ _ _).trans ?_
  rw [negInf_f32, fold_max_bot]
  refine congrArg (Finset.univ.sup) (funext fun w => congrArg v ?_)
  funext a
  apply Fin.ext
  match a with
  | ⟨0, _⟩ => rfl
  | ⟨1, _⟩ => rfl
  | ⟨2, _⟩ => rfl
  | ⟨3, _⟩ => rfl

/-- Viewing [32,1024,7] as [32,1024,7,1] keeps the entry at (p, ch, h). -/
theorem cast1_apply {α : Type} (v : S32x1024x7.Idx → α) (p : Fin 32) (ch : Fin 1024) (h : Fin 7) (z : Fin 1) :
    shapeCast S32x1024x7x1 v shapeCasts_S32x1024x7_S32x1024x7x1 (ix4 p ch h z) = v (ix3 p ch h) := by
  refine shapeCast_apply v _ _ _ ?_
  rw [Shape.rowMajor_val_three, Shape.rowMajor_val_four]
  show (p.val * 1024 + ch.val) * 7 + h.val = ((p.val * 1024 + ch.val) * 7 + h.val) * 1 + z.val
  have := z.isLt
  omega

/-- Viewing [32,1024,1] as [32,1024,1,1] keeps the entry at (p, ch). -/
theorem cast2_apply {α : Type} (v : S32x1024x1.Idx → α) (p : Fin 32) (ch : Fin 1024) (z z' : Fin 1) :
    shapeCast S32x1024x1x1 v shapeCasts_S32x1024x1_S32x1024x1x1 (ix4 p ch z z') = v (ix3 p ch z) := by
  refine shapeCast_apply v _ _ _ ?_
  rw [Shape.rowMajor_val_three, Shape.rowMajor_val_four]
  show (p.val * 1024 + ch.val) * 1 + z.val = ((p.val * 1024 + ch.val) * 1 + z.val) * 1 + z'.val
  have := z'.isLt
  omega

/-- Spreading a [32,1024,1,1] block over the 7 x 7 slab reads the (p, ch) entry everywhere. -/
theorem bcast_apply {α : Type} (v : S32x1024x1x1.Idx → α) (p : Fin 32) (ch : Fin 1024) (h w : Fin 7) :
    broadcastTo S32x1024x7x7 v broadcasts_S32x1024x1x1_S32x1024x7x7 (ix4 p ch h w) = v (ix4 p ch 0 0) := by
  refine broadcastTo_apply v _ _ _ ?_
  intro a
  match a with
  | ⟨0, _⟩ => rfl
  | ⟨1, _⟩ => rfl
  | ⟨2, _⟩ => rfl
  | ⟨3, _⟩ => rfl

/-- The stored value of a block: each entry times the largest entry of its 7 x 7 slab. -/
theorem pay_apply (x0 : Vec Ideal S32x1024x7x7 .f32) (p : Fin 32) (ch : Fin 1024) (h w : Fin 7) :
    k0_pay1 x0 (ix4 p ch h w) = x0 (ix4 p ch h w) * Finset.univ.sup fun q : Fin 7 × Fin 7 => x0 (ix4 p ch q.1 q.2) := by
  unfold k0_pay1
  refine (mulf_apply x0 _ (ix4 p ch h w)).trans ?_
  refine congrArg (x0 (ix4 p ch h w) * ·) ?_
  refine (bcast_apply _ p ch h w).trans ?_
  refine (cast2_apply _ p ch 0 0).trans ?_
  refine (red2_apply _ p ch 0).trans ?_
  rw [← Finset.univ_product_univ, Finset.sup_product_left]
  refine congrArg (Finset.univ.sup) (funext fun h' => ?_)
  refine (cast1_apply _ p ch h' 0).trans ?_
  exact red3_apply x0 p ch h'

/-! ## A block entry is an array entry -/

variable (V : (c : Dev nD) → (b : Ref sig .tc) → Buf (Elt Ideal) ((c : Thread nD τ).loc b))

/-- The two windows' block indices, decided over the grid: point t holds batch block t, and the whole of every other axis. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- An entry of the input block at point t is the feature entry 32 t rows further down the batch axis. -/
theorem iblk0_apply (c : Dev nD) (t : Fin cfg0.N) (p : Fin 32) (ch : Fin 1024) (h w : Fin 7) (hb : 32 * t.val + p.val < 256) :
    iblk0 V c 0 t (ix4 p ch h w) = V c main_arg0 (ix4 ⟨32 * t.val + p.val, hb⟩ ch h w) := by
  obtain ⟨e0, e1, e2, e3, -⟩ := idx_facts0 t
  unfold iblk0
  rw [View.read_apply]
  show V c main_arg0 _ = V c main_arg0 _
  refine congrArg (V c main_arg0) ?_
  funext a
  apply Fin.ext
  match a with
  | ⟨0, _⟩ => show win0_0.index t (0 : Fin 4) * 32 + 1 * p.val = 32 * t.val + p.val; rw [e0]; omega
  | ⟨1, _⟩ => show win0_0.index t (1 : Fin 4) * 1024 + 1 * ch.val = ch.val; rw [e1]; omega
  | ⟨2, _⟩ => show win0_0.index t (2 : Fin 4) * 7 + 1 * h.val = h.val; rw [e2]; omega
  | ⟨3, _⟩ => show win0_0.index t (3 : Fin 4) * 7 + 1 * w.val = w.val; rw [e3]; omega

/-! ## From the blocks to the array -/

/-- A block whose slab at (p, ch) is the feature map's slab at (b, ch) stores there the scaled feature entries. -/
theorem scaled_of_block (X : Vec Ideal S32x1024x7x7 .f32) (x : Cert.Head.SFeat.Idx → EReal) (b : Fin 256) (p : Fin 32)
    (ch : Fin 1024) (h w : Fin 7) (hX : ∀ h' w' : Fin 7, X (ix4 p ch h' w') = x (ix4 b ch h' w')) :
    k0_pay1 X (ix4 p ch h w) = Cert.Head.scaled x b ch h w := by
  rw [pay_apply]
  unfold Cert.Head.scaled Cert.Head.chanMax
  rw [hX h w]
  refine congrArg (x (ix4 b ch h w) * ·) ?_
  exact congrArg Finset.univ.sup (funext fun q => hX q.1 q.2)

/-- The stored value at point t, at a block entry, is the scaled feature entry 32 t rows further down the batch axis. -/
theorem point_val (c : Dev nD) (t : Fin cfg0.N) (p : Fin 32) (ch : Fin 1024) (h w : Fin 7) (hb : 32 * t.val + p.val < 256) :
    k0_pay1 (iblk0 V c 0 t) (ix4 p ch h w) = Cert.Head.scaled (V c main_arg0) ⟨32 * t.val + p.val, hb⟩ ch h w :=
  scaled_of_block (iblk0 V c 0 t) (V c main_arg0) ⟨32 * t.val + p.val, hb⟩ p ch h w
    (fun h' w' => iblk0_apply V c t p ch h' w' hb)

/-- What the output array ends holding, as a function of its index: the scaled feature map. -/
def pcamG (x : Cert.Head.SFeat.Idx → EReal) : S256x1024x7x7.Idx → EReal := fun i =>
  Cert.Head.scaled x ⟨(i 0).val, (i 0).isLt⟩ ⟨(i 1).val, (i 1).isLt⟩ ⟨(i 2).val, (i 2).isLt⟩ ⟨(i 3).val, (i 3).isLt⟩

/-- The same at any block index y and the array index i it sits at: row 32 t + y 0, the other coordinates unchanged. -/
theorem point_val_idx (c : Dev nD) (t : Fin cfg0.N) (y : S32x1024x7x7.Idx) (i : S256x1024x7x7.Idx)
    (h0 : (i 0).val = 32 * t.val + (y 0).val) (h1 : (i 1).val = (y 1).val) (h2 : (i 2).val = (y 2).val) (h3 : (i 3).val = (y 3).val) :
    k0_pay1 (iblk0 V c 0 t) y = pcamG (V c main_arg0) i := by
  have hb : 32 * t.val + (y 0).val < 256 := by rw [← h0]; exact (i 0).isLt
  refine (congrArg (k0_pay1 (iblk0 V c 0 t)) (eq_ix4 y)).trans ?_
  refine (point_val V c t (y 0) (y 1) (y 2) (y 3) hb).trans ?_
  have e0 : (⟨32 * t.val + (y 0).val, hb⟩ : Fin 256) = ⟨(i 0).val, (i 0).isLt⟩ := Fin.ext h0.symm
  have e1 : (y 1 : Fin 1024) = ⟨(i 1).val, (i 1).isLt⟩ := Fin.ext h1.symm
  have e2 : (y 2 : Fin 7) = ⟨(i 2).val, (i 2).isLt⟩ := Fin.ext h2.symm
  have e3 : (y 3 : Fin 7) = ⟨(i 3).val, (i 3).isLt⟩ := Fin.ext h3.symm
  exact congr (congr (congr (congrArg (Cert.Head.scaled (V c main_arg0)) e0) e1) e2) e3

/-- What point t writes back is its block of the scaled feature map. -/
theorem flushed0_eq (c : Dev nD) (t : Fin cfg0.N) :
    (dat0 (F := Ideal) V c).flushed 1 t = ((cfg0.win 1).blk t).view.read (Elt Ideal) (pcamG (V c main_arg0)) := by
  obtain ⟨-, -, -, -, e0, e1, e2, e3⟩ := idx_facts0 t
  show (cfg0.win 1).cut (grid0.coords t) ((dat0 V c).after 1 t) = _
  rw [dat0_after_out]
  funext j
  rw [View.read_apply]
  refine point_val_idx V c t _ _ ?_ ?_ ?_ ?_
  · show win0_1.index t (0 : Fin 4) * 32 + 1 * (j 0).val = 32 * t.val + (j 0).val; rw [e0]; omega
  · show win0_1.index t (1 : Fin 4) * 1024 + 1 * (j 1).val = (j 1).val; rw [e1]; omega
  · show win0_1.index t (2 : Fin 4) * 7 + 1 * (j 2).val = (j 2).val; rw [e2]; omega
  · show win0_1.index t (3 : Fin 4) * 7 + 1 * (j 3).val = (j 3).val; rw [e3]; omega

/-- Every index of the output array lies in the block of the point that holds its batch row: row b is in block b / 32. -/
theorem cover0 (i : S256x1024x7x7.Idx) :
    ∃ t : Fin cfg0.N, (cfg0.win 1).flush t = true ∧ i ∈ ((cfg0.win 1).blk t).view.set := by
  have hi0 : (i 0).val < 256 := (i 0).isLt
  have hi1 : (i 1).val < 1024 := (i 1).isLt
  have hi2 : (i 2).val < 7 := (i 2).isLt
  have hi3 : (i 3).val < 7 := (i 3).isLt
  obtain ⟨t, ht⟩ : ∃ t : Fin cfg0.N, t.val = (i 0).val / 32 := ⟨⟨(i 0).val / 32, by show _ < 8; omega⟩, rfl⟩
  obtain ⟨-, -, -, -, e0, e1, e2, e3⟩ := idx_facts0 t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 4) * 32 ≤ (i 0).val ∧ (i 0).val < win0_1.index t (0 : Fin 4) * 32 + 32; rw [e0, ht]; omega
  | ⟨1, _⟩ => show win0_1.index t (1 : Fin 4) * 1024 ≤ (i 1).val ∧ (i 1).val < win0_1.index t (1 : Fin 4) * 1024 + 1024; rw [e1]; omega
  | ⟨2, _⟩ => show win0_1.index t (2 : Fin 4) * 7 ≤ (i 2).val ∧ (i 2).val < win0_1.index t (2 : Fin 4) * 7 + 7; rw [e2]; omega
  | ⟨3, _⟩ => show win0_1.index t (3 : Fin 4) * 7 ≤ (i 3).val ∧ (i 3).val < win0_1.index t (3 : Fin 4) * 7 + 7; rw [e3]; omega

/-- So the output array ends holding the scaled feature map. -/
theorem pcam_final (c : Dev nD) : (dat0 (F := Ideal) V c).arrAt 1 cfg0.N = pcamG (V c main_arg0) :=
  (dat0 (F := Ideal) V c).arrAt_eq_of_cover 1 (pcamG (V c main_arg0)) (fun t _ => flushed0_eq V c t) cover0

/-- The output array of the first region after its last write-back, entry by entry. -/
theorem pcam_array (c : Dev nD) (b : Fin 256) (ch : Fin 1024) (h w : Fin 7) :
    (dat0 (F := Ideal) V c).arrAt 1 cfg0.N (ix4 b ch h w) = Cert.Head.scaled (V c main_arg0) b ch h w :=
  (congrFun (pcam_final V c) (ix4 b ch h w)).trans rfl

end Cert.KernelIdeal.Hand

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.AccValue.lean ====
/-
  The scratch of the second region after its last point, at the ideal instance: entry (b, k) is the whole contraction
  over the 50176 positions of row b of the region's first operand with row k of its second.
-/
import proofs.«124790_j42588895707592_1_alg».proof.Proof.Spec
import proofs.«124790_j42588895707592_1_alg».proof.Proof.MmData
import proofs.«124790_j42588895707592_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's two stored values at an entry -/

/-- The left operand's row coordinate at result entry `i` is the entry's row. -/
theorem lhs_mm_0 (i : S256x768.Idx) (q : dot_S256x3584_S768x3584_S256x768_1_1_0_0_n_n.contr.Idx) :
    (dot_S256x3584_S768x3584_S256x768_1_1_0_0_n_n.lhsIdx i q 0).val = (i 0).val := by
  unfold DotDims.lhsIdx
  rw [dif_neg (show ¬(0 : Fin S256x3584.rank) ∈ dot_S256x3584_S768x3584_S256x768_1_1_0_0_n_n.lhsBatch by decide), dif_pos (show (0 : Fin S256x3584.rank) ∈ dot_S256x3584_S768x3584_S256x768_1_1_0_0_n_n.lhsNonContracting by decide)]
  rfl
/-- The left operand's column coordinate is the contraction position. -/
theorem lhs_mm_1 (i : S256x768.Idx) (q : dot_S256x3584_S768x3584_S256x768_1_1_0_0_n_n.contr.Idx) :
    (dot_S256x3584_S768x3584_S256x768_1_1_0_0_n_n.lhsIdx i q 1).val = (q ⟨0, by decide⟩).val :=
  dot_S256x3584_S768x3584_S256x768_1_1_0_0_n_n.lhsIdx_val_of_single rfl i q
/-- The right operand's row coordinate at result entry `i` is the entry's column. -/
theorem rhs_mm_0 (i : S256x768.Idx) (q : dot_S256x3584_S768x3584_S256x768_1_1_0_0_n_n.contr.Idx) :
    (dot_S256x3584_S768x3584_S256x768_1_1_0_0_n_n.rhsIdx i q 0).val = (i 1).val := by
  unfold DotDims.rhsIdx
  rw [dif_neg (show ¬(0 : Fin S768x3584.rank) ∈ dot_S256x3584_S768x3584_S256x768_1_1_0_0_n_n.rhsBatch by decide), dif_pos (show (0 : Fin S768x3584.rank) ∈ dot_S256x3584_S768x3584_S256x768_1_1_0_0_n_n.rhsNonContracting by decide)]
  rfl
/-- The right operand's column coordinate is the contraction position. -/
theorem rhs_mm_1 (i : S256x768.Idx) (q : dot_S256x3584_S768x3584_S256x768_1_1_0_0_n_n.contr.Idx) :
    (dot_S256x3584_S768x3584_S256x768_1_1_0_0_n_n.rhsIdx i q 1).val = (q ⟨0, by decide⟩).val :=
  dot_S256x3584_S768x3584_S256x768_1_1_0_0_n_n.rhsIdx_val_of_single rfl i q

/-- The product of a 256 x 3584 block with the transpose of a 768 x 3584 block, accumulated from zero, at entry
    (b, k): the sum over the 3584 positions of row b of the first times row k of the second. -/
theorem mm_apply (x : FVec Ideal S256x3584 .bf16) (w : FVec Ideal S768x3584 .bf16) (b : Fin 256) (k : Fin 768) :
    FloatOps.matmul dot_S256x3584_S768x3584_S256x768_1_1_0_0_n_n none x w (constant S256x768 .f32 0x00000000#32) (ix2 b k)
      = ∑ j : Fin 3584, x (ix2 b j) * w (ix2 k j) := by
  rw [Ideal.matmul_constant_zero_apply, ← Equiv.sum_comp (ValueIdx.contrEquiv1 dot_S256x3584_S768x3584_S256x768_1_1_0_0_n_n 3584 rfl rfl).symm]
  refine Finset.sum_congr rfl fun j _ => ?_
  have hj := ValueIdx.contrEquiv1_symm_val dot_S256x3584_S768x3584_S256x768_1_1_0_0_n_n 3584 rfl rfl j
  have el : dot_S256x3584_S768x3584_S256x768_1_1_0_0_n_n.lhsIdx (ix2 b k) ((ValueIdx.contrEquiv1 dot_S256x3584_S768x3584_S256x768_1_1_0_0_n_n 3584 rfl rfl).symm j) = ix2 b j := funext fun a => Fin.ext (by
    match a with
    | ⟨0, _⟩ => exact lhs_mm_0 _ _
    | ⟨1, _⟩ => exact (lhs_mm_1 _ _).trans hj)
  have er : dot_S256x3584_S768x3584_S256x768_1_1_0_0_n_n.rhsIdx (ix2 b k) ((ValueIdx.contrEquiv1 dot_S256x3584_S768x3584_S256x768_1_1_0_0_n_n 3584 rfl rfl).symm j) = ix2 k j := funext fun a => Fin.ext (by
    match a with
    | ⟨0, _⟩ => exact rhs_mm_0 _ _
    | ⟨1, _⟩ => exact (rhs_mm_1 _ _).trans hj)
  rw [el, er]

/-- What a point adds to the scratch: at entry (b, k), the entry before plus the product of the point's two blocks
    there (the change of format before the product is the identity on extended reals). -/
theorem pay2_apply (x : Vec Ideal S256x3584 .f32) (w : Vec Ideal S768x3584 .f32) (a : Vec Ideal S256x768 .f32) (b : Fin 256) (k : Fin 768) :
    k1_pay2 (F := Ideal) x w a (ix2 b k) = a (ix2 b k) + ∑ j : Fin 3584, x (ix2 b j) * w (ix2 k j) := by
  unfold k1_pay2
  simp only [shapeCast_self]
  rw [addf_apply]
  simp only [matmul]
  rw [mm_apply]
  rfl

/-- What the first point finds in the scratch: zero at every entry. -/
theorem pay1_apply (b : Fin 256) (k : Fin 768) : k1_pay1 (F := Ideal) (ix2 b k) = 0 := by
  unfold k1_pay1
  simp only [shapeCast_self]
  rw [broadcast_apply]
  exact Ideal.ofBits_zero_f32

/-! ## A block's entry is an entry of its array -/

/-- The first operand's block at point `t` starts at row 0, column block `t`. -/
theorem index1_0 : ∀ t : Fin cfg1.N, (cfg1.win 0).index t (0 : Fin 2) = 0 ∧ (cfg1.win 0).index t (1 : Fin 2) = t.val :=
  (by decide +kernel : ∀ t : Fin grid1.N, win1_0.index t (0 : Fin 2) = 0 ∧ win1_0.index t (1 : Fin 2) = t.val)
/-- So does the second operand's. -/
theorem index1_1 : ∀ t : Fin cfg1.N, (cfg1.win 1).index t (0 : Fin 2) = 0 ∧ (cfg1.win 1).index t (1 : Fin 2) = t.val :=
  (by decide +kernel : ∀ t : Fin grid1.N, win1_1.index t (0 : Fin 2) = 0 ∧ win1_1.index t (1 : Fin 2) = t.val)

/-- Entry (b, j) of the first operand's block at point `t` sits in the array at row b, column 3584 t + j. -/
theorem emb1_0 (t : Fin cfg1.N) (b : Fin 256) (j : Fin 3584) (hq : 3584 * t.val + j.val < 50176) :
    ((cfg1.win 0).rect t).emb (ix2 b j) = (ix2 b ⟨3584 * t.val + j.val, hq⟩ : S256x50176.Idx) := by
  funext a
  apply Fin.ext
  rw [Pipeline.Window.rect_emb_val]
  match a with
  | ⟨0, _⟩ => exact (congrArg (fun i => i * 256 + b.val) (index1_0 t).1).trans (by omega : 0 * 256 + b.val = b.val)
  | ⟨1, _⟩ => exact (congrArg (fun i => i * 3584 + j.val) (index1_0 t).2).trans (by omega : t.val * 3584 + j.val = 3584 * t.val + j.val)

/-- Entry (k, j) of the second operand's block at point `t` sits in the array at row k, column 3584 t + j. -/
theorem emb1_1 (t : Fin cfg1.N) (k : Fin 768) (j : Fin 3584) (hq : 3584 * t.val + j.val < 50176) :
    ((cfg1.win 1).rect t).emb (ix2 k j) = (ix2 k ⟨3584 * t.val + j.val, hq⟩ : S768x50176.Idx) := by
  funext a
  apply Fin.ext
  rw [Pipeline.Window.rect_emb_val]
  match a with
  | ⟨0, _⟩ => exact (congrArg (fun i => i * 768 + k.val) (index1_1 t).1).trans (by omega : 0 * 768 + k.val = k.val)
  | ⟨1, _⟩ => exact (congrArg (fun i => i * 3584 + j.val) (index1_1 t).2).trans (by omega : t.val * 3584 + j.val = 3584 * t.val + j.val)

/-- The first operand's block at point `t` holds columns 3584 t … 3584 t + 3583 of the flattened features. -/
theorem iblk1_0_apply (c : Dev nD) (t : Fin cfg1.N) (b : Fin 256) (j : Fin 3584) (hq : 3584 * t.val + j.val < 50176) :
    iblk1 (F := Ideal) V c 0 t (ix2 b j) = flatIn (F := Ideal) V c (ix2 b ⟨3584 * t.val + j.val, hq⟩) := by
  unfold iblk1
  rw [View.read_apply]
  show V c main_v1 (((cfg1.win 0).rect t).emb (ix2 b j)) = V c main_v1 (ix2 b ⟨3584 * t.val + j.val, hq⟩)
  rw [emb1_0 t b j hq]

/-- The second operand's block at point `t` holds the same columns of the first weight matrix. -/
theorem iblk1_1_apply (c : Dev nD) (t : Fin cfg1.N) (k : Fin 768) (j : Fin 3584) (hq : 3584 * t.val + j.val < 50176) :
    iblk1 (F := Ideal) V c 1 t (ix2 k j) = w1In (F := Ideal) V c (ix2 k ⟨3584 * t.val + j.val, hq⟩) := by
  unfold iblk1
  rw [View.read_apply]
  show V c main_arg1 (((cfg1.win 1).rect t).emb (ix2 k j)) = V c main_arg1 (ix2 k ⟨3584 * t.val + j.val, hq⟩)
  rw [emb1_1 t k j hq]

/-! ## The scratch after each point, and after the last -/

/-- One point's step at entry (b, k), over any two blocks that hold columns 3584 s … 3584 s + 3583 of row b of the
    flattened features and of row k of the first weight matrix: the entry before plus that run of the contraction. -/
theorem step_apply (c : Dev nD) (s : ℕ) (hs : s < 14) (x : Vec Ideal S256x3584 .f32) (w : Vec Ideal S768x3584 .f32)
    (a : Vec Ideal S256x768 .f32) (b : Fin 256) (k : Fin 768)
    (hx : ∀ (j : Fin 3584) (hq : 3584 * s + j.val < 50176), x (ix2 b j) = flatIn (F := Ideal) V c (ix2 b ⟨3584 * s + j.val, hq⟩))
    (hw : ∀ (j : Fin 3584) (hq : 3584 * s + j.val < 50176), w (ix2 k j) = w1In (F := Ideal) V c (ix2 k ⟨3584 * s + j.val, hq⟩)) :
    k1_pay2 (F := Ideal) x w a (ix2 b k) = a (ix2 b k) + ∑ j : Fin 3584,
      (if hq : 3584 * s + j.val < 50176 then
        flatIn (F := Ideal) V c (ix2 b ⟨3584 * s + j.val, hq⟩) * w1In (F := Ideal) V c (ix2 k ⟨3584 * s + j.val, hq⟩) else 0) := by
  rw [pay2_apply]
  congr 1
  refine Finset.sum_congr rfl fun j _ => ?_
  have hq : 3584 * s + j.val < 50176 := by have := j.isLt; omega
  rw [dif_pos hq, hx j hq, hw j hq]

/-- The scratch after point `n`, at entry (b, k): the first n + 1 runs of 3584 positions of the contraction of row b of
    the flattened features with row k of the first weight matrix. Only regrouping of sums: no entry need be finite. -/
theorem accAt_apply (c : Dev nD) (b : Fin 256) (k : Fin 768) : ∀ (n : ℕ) (h : n < cfg1.N),
    accAt (F := Ideal) V c n h (ix2 b k) = ∑ s ∈ Finset.range (n + 1), ∑ j : Fin 3584,
      (if hq : 3584 * s + j.val < 50176 then
        flatIn (F := Ideal) V c (ix2 b ⟨3584 * s + j.val, hq⟩) * w1In (F := Ideal) V c (ix2 k ⟨3584 * s + j.val, hq⟩) else 0)
  | 0, h => by
    rw [Finset.sum_range_one, accAt_zero]
    refine (step_apply V c 0 (by omega) _ _ _ b k (fun j hq => iblk1_0_apply V c ⟨0, h⟩ b j hq)
      (fun j hq => iblk1_1_apply V c ⟨0, h⟩ k j hq)).trans ?_
    rw [pay1_apply, zero_add]
  | n + 1, h => by
    have h14 : n + 1 < 14 := by have h' := h; rw [show cfg1.N = 14 from N_1] at h'; exact h'
    rw [Finset.sum_range_succ, ← accAt_apply c b k n (Nat.lt_of_succ_lt h), accAt_succ]
    exact step_apply V c (n + 1) h14 _ _ _ b k (fun j hq => iblk1_0_apply V c ⟨n + 1, h⟩ b j hq)
      (fun j hq => iblk1_1_apply V c ⟨n + 1, h⟩ k j hq)

/-- The scratch after the last of the 14 points. -/
theorem acc_value (c : Dev nD) (h13 : 13 < cfg1.N) (b : Fin 256) (k : Fin 768) :
    accAt (F := Ideal) V c 13 h13 (ix2 b k) = ∑ q : Fin 50176, flatIn (F := Ideal) V c (ix2 b q) * w1In (F := Ideal) V c (ix2 k q) := by
  rw [accAt_apply V c b k 13 h13]
  exact (Cert.LibBlockSum.sum_fin_blocks 14 3584 rfl
    (fun q : Fin 50176 => flatIn (F := Ideal) V c (ix2 b q) * w1In (F := Ideal) V c (ix2 k q))).symm

end Cert.KernelIdeal.Hand

end
-- ==== Proof.OutValue.lean ====
/-
  What the second region leaves in its output array, at the ideal instance: the one write-back, at the last point, puts
  there the last point's result of the scratch: bias added, cut off below at zero, contracted with the second weight
  matrix over the 768 hidden units, second bias added.
-/
import proofs.«124790_j42588895707592_1_alg».proof.Proof.Spec
import proofs.«124790_j42588895707592_1_alg».proof.Proof.MmData
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The second contraction: both operands contract their second axis

At output index (b, j) and contraction position k the left operand is read at (b, k) and the right one at (j, k). -/

/-- The left operand's first coordinate is the output's first. -/
theorem dot2_lhs0 (i : S256x5.Idx) (q : dot_S256x768_S5x768_S256x5_1_1_0_0_n_n.contr.Idx) :
    (dot_S256x768_S5x768_S256x5_1_1_0_0_n_n.lhsIdx i q 0).val = (i 0).val := by
  unfold DotDims.lhsIdx
  rw [dif_neg (show ¬(0 : Fin S256x768.rank) ∈ dot_S256x768_S5x768_S256x5_1_1_0_0_n_n.lhsBatch by decide), dif_pos (show (0 : Fin S256x768.rank) ∈ dot_S256x768_S5x768_S256x5_1_1_0_0_n_n.lhsNonContracting by decide)]
  rfl
/-- The left operand's second coordinate is the contraction position. -/
theorem dot2_lhs1 (i : S256x5.Idx) (q : dot_S256x768_S5x768_S256x5_1_1_0_0_n_n.contr.Idx) :
    (dot_S256x768_S5x768_S256x5_1_1_0_0_n_n.lhsIdx i q 1).val = (q ⟨0, by decide⟩).val :=
  dot_S256x768_S5x768_S256x5_1_1_0_0_n_n.lhsIdx_val_of_single rfl i q
/-- The right operand's first coordinate is the output's second. -/
theorem dot2_rhs0 (i : S256x5.Idx) (q : dot_S256x768_S5x768_S256x5_1_1_0_0_n_n.contr.Idx) :
    (dot_S256x768_S5x768_S256x5_1_1_0_0_n_n.rhsIdx i q 0).val = (i 1).val := by
  unfold DotDims.rhsIdx
  rw [dif_neg (show ¬(0 : Fin S5x768.rank) ∈ dot_S256x768_S5x768_S256x5_1_1_0_0_n_n.rhsBatch by decide), dif_pos (show (0 : Fin S5x768.rank) ∈ dot_S256x768_S5x768_S256x5_1_1_0_0_n_n.rhsNonContracting by decide)]
  rfl
/-- The right operand's second coordinate is the contraction position. -/
theorem dot2_rhs1 (i : S256x5.Idx) (q : dot_S256x768_S5x768_S256x5_1_1_0_0_n_n.contr.Idx) :
    (dot_S256x768_S5x768_S256x5_1_1_0_0_n_n.rhsIdx i q 1).val = (q ⟨0, by decide⟩).val :=
  dot_S256x768_S5x768_S256x5_1_1_0_0_n_n.rhsIdx_val_of_single rfl i q

/-- The product into a zero accumulator, at (b, j): the sum over the 768 positions of x[b, k] · y[j, k]. -/
theorem matmul2_apply (x : FVec Ideal S256x768 .bf16) (y : FVec Ideal S5x768 .bf16) (b : Fin 256) (j : Fin 5) :
    FloatOps.matmul dot_S256x768_S5x768_S256x5_1_1_0_0_n_n none x y (constant S256x5 .f32 0x00000000#32) (ix2 b j)
      = ∑ k : Fin 768, x (ix2 b k) * y (ix2 j k) := by
  rw [Ideal.matmul_constant_zero_apply, ← Equiv.sum_comp (ValueIdx.contrEquiv1 dot_S256x768_S5x768_S256x5_1_1_0_0_n_n 768 rfl rfl).symm]
  refine Finset.sum_congr rfl fun k _ => ?_
  have hk := ValueIdx.contrEquiv1_symm_val dot_S256x768_S5x768_S256x5_1_1_0_0_n_n 768 rfl rfl k
  have el : dot_S256x768_S5x768_S256x5_1_1_0_0_n_n.lhsIdx (ix2 b j) ((ValueIdx.contrEquiv1 dot_S256x768_S5x768_S256x5_1_1_0_0_n_n 768 rfl rfl).symm k) = ix2 b k := funext fun a => Fin.ext (by
    match a with
    | ⟨0, _⟩ => exact dot2_lhs0 _ _
    | ⟨1, _⟩ => exact (dot2_lhs1 _ _).trans hk)
  have er : dot_S256x768_S5x768_S256x5_1_1_0_0_n_n.rhsIdx (ix2 b j) ((ValueIdx.contrEquiv1 dot_S256x768_S5x768_S256x5_1_1_0_0_n_n 768 rfl rfl).symm k) = ix2 j k := funext fun a => Fin.ext (by
    match a with
    | ⟨0, _⟩ => exact dot2_rhs0 _ _
    | ⟨1, _⟩ => exact (dot2_rhs1 _ _).trans hk)
  rw [el, er]

/-! ## The last point's result, entry by entry, over any four operands -/

/-- Entry (b, j) of the result computed from a scratch `a`, a bias row `r1`, a weight matrix `w2` and a bias row `r2`:
    the row broadcasts read their one row, the change of format is the identity, the zero splat is zero. -/
theorem pay3_apply (a : Vec Ideal S256x768 .f32) (r1 : Vec Ideal S1x768 .f32) (w2 : Vec Ideal S5x768 .f32) (r2 : Vec Ideal S1x5 .f32)
    (b : Fin 256) (j : Fin 5) :
    k1_pay3 (F := Ideal) a r1 w2 r2 (ix2 b j)
      = (∑ k : Fin 768, max (a (ix2 b k) + r1 (ix2 (0 : Fin 1) k)) 0 * w2 (ix2 j k)) + r2 (ix2 (0 : Fin 1) j) := by
  unfold k1_pay3
  show (FloatOps.matmul dot_S256x768_S5x768_S256x5_1_1_0_0_n_n none _ _ (constant S256x5 .f32 0x00000000#32)) (ix2 b j) + _ = _
  rw [matmul2_apply, broadcastTo_1b_ab_apply]
  simp only [shapeCast_self]
  refine congrArg (· + r2 (ix2 (0 : Fin 1) j)) (Finset.sum_congr rfl fun k _ => ?_)
  show max (a (ix2 b k) + broadcastTo S256x768 r1 broadcasts_S1x768_S256x768 (ix2 b k)) (Ideal.ofBits .f32 0x00000000#32) * w2 (ix2 j k) = _
  rw [broadcastTo_1b_ab_apply, Ideal.ofBits_zero_f32]

variable (V : (c : Dev nD) → (b : Ref sig .tc) → Buf (Elt Ideal) ((c : Thread nD τ).loc b))

/-! ## The three small operands' blocks are their whole arrays

Each has block index (0, 0) and a block of the array's size, so an entry of the block is the same entry of the array. -/

/-- The first bias row's block at any point is the row. -/
theorem iblk1_2_apply (c : Dev nD) (t : Fin cfg1.N) (k : Fin 768) :
    (iblk1 (F := Ideal) V c 2 t : Vec Ideal S1x768 .f32) (ix2 (0 : Fin 1) k) = b1In (F := Ideal) V c (ix2 (0 : Fin 1) k) := by
  unfold iblk1
  rw [View.read_apply, cast_eq]
  refine congrArg (V c main_v2) (funext fun a => Fin.ext ?_)
  match a with
  | ⟨0, _⟩ => rfl
  | ⟨1, _⟩ => show 0 * 768 + 1 * k.val = k.val; omega

/-- The second weight matrix's block at any point is the matrix. -/
theorem iblk1_3_apply (c : Dev nD) (t : Fin cfg1.N) (j : Fin 5) (k : Fin 768) :
    (iblk1 (F := Ideal) V c 3 t : Vec Ideal S5x768 .f32) (ix2 j k) = w2In (F := Ideal) V c (ix2 j k) := by
  unfold iblk1
  rw [View.read_apply, cast_eq]
  refine congrArg (V c main_arg3) (funext fun a => Fin.ext ?_)
  match a with
  | ⟨0, _⟩ => show 0 * 5 + 1 * j.val = j.val; omega
  | ⟨1, _⟩ => show 0 * 768 + 1 * k.val = k.val; omega

/-- The second bias row's block at any point is the row. -/
theorem iblk1_4_apply (c : Dev nD) (t : Fin cfg1.N) (j : Fin 5) :
    (iblk1 (F := Ideal) V c 4 t : Vec Ideal S1x5 .f32) (ix2 (0 : Fin 1) j) = b2In (F := Ideal) V c (ix2 (0 : Fin 1) j) := by
  unfold iblk1
  rw [View.read_apply, cast_eq]
  refine congrArg (V c main_v3) (funext fun a => Fin.ext ?_)
  match a with
  | ⟨0, _⟩ => rfl
  | ⟨1, _⟩ => show 0 * 5 + 1 * j.val = j.val; omega

/-! ## The output array after the points

The output's block is the whole array too, and only the last point writes it back. -/

/-- Entry (b, j) of the output's block sits at (b, j) of the array. -/
theorem out_emb (t : Fin cfg1.N) (b : Fin 256) (j : Fin 5) :
    ((cfg1.win 5).blk t).view.emb (ix2 b j) = (ix2 b j : S256x5.Idx) := by
  refine funext fun a => Fin.ext ?_
  match a with
  | ⟨0, _⟩ => show 0 * 256 + 1 * b.val = b.val; omega
  | ⟨1, _⟩ => show 0 * 5 + 1 * j.val = j.val; omega

/-- The array after all points holds, at (b, j), what the last point computed there: one point writes back, so no
    two writing points' blocks can meet. -/
theorem arr5 (c : Dev nD) (h13 : 13 < cfg1.N) (b : Fin 256) (j : Fin 5) :
    (dat1 (F := Ideal) V c).arrAt 5 cfg1.N (ix2 b j)
      = k1_pay3 (accAt (F := Ideal) V c 13 h13) (iblk1 V c 2 ⟨13, h13⟩) (iblk1 V c 3 ⟨13, h13⟩) (iblk1 V c 4 ⟨13, h13⟩) (ix2 b j) := by
  have hd := Dat.arrAt_emb_eq_flushed (dat := dat1 (F := Ideal) V c) 5 (fun t t' hf hf' hne => absurd (Fin.ext (by
      have h1 := (flush1_5 t).mp hf; have h2 := (flush1_5 t').mp hf'; have := t.isLt; have := t'.isLt
      have e : cfg1.N = 14 := rfl
      omega)) hne) ⟨13, h13⟩ ((flush1_5 _).mpr rfl) (ix2 b j)
  rw [out_emb, cast_eq] at hd
  refine hd.trans ?_
  exact congrFun (dat1_after5 V c ⟨13, h13⟩) (ix2 b j)

/-- The output array of the second region after its last point, entry by entry, over the scratch's last contents. -/
theorem mm_array (c : Dev nD) (h13 : 13 < cfg1.N) (b : Fin 256) (j : Fin 5) :
    (dat1 (F := Ideal) V c).arrAt 5 cfg1.N (ix2 b j)
      = (∑ k : Fin 768, max (accAt (F := Ideal) V c 13 h13 (ix2 b k) + b1In (F := Ideal) V c (ix2 (0 : Fin 1) k)) 0 * w2In (F := Ideal) V c (ix2 j k))
          + b2In (F := Ideal) V c (ix2 (0 : Fin 1) j) := by
  rw [arr5, pay3_apply, iblk1_4_apply]
  refine congrArg (· + b2In (F := Ideal) V c (ix2 (0 : Fin 1) j)) (Finset.sum_congr rfl fun k _ => ?_)
  rw [iblk1_2_apply, iblk1_3_apply]

end Cert.KernelIdeal.Hand

end
-- ==== Proof.Final.lean ====
/-
  The value of the whole program at the ideal instance. The second region is entered with: the first region's output
  array reshaped to rows of 50176 (the scaled feature map, flattened), the first weight matrix as launched, the first
  bias as one row, the second weight matrix as launched, the second bias as one row. Its output array is then the
  specification's function of the five launch arrays, and that array is what the run's last contents hold at the
  result buffer.
-/
import proofs.«124790_j42588895707592_1_alg».proof.Proof.Launch
import proofs.«124790_j42588895707592_1_alg».proof.Proof.Kept
import proofs.«124790_j42588895707592_1_alg».proof.Proof.PcamValue
import proofs.«124790_j42588895707592_1_alg».proof.Proof.AccValue
import proofs.«124790_j42588895707592_1_alg».proof.Proof.OutValue
import proofs.«124790_j42588895707592_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen Cert.Head
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The five arguments' launch contents on core `c`, each named at its literal type. -/
abbrev featArg (c : Dev nD) : (⟨S256x1024x7x7, .f32⟩ : BufTy).Contents (Elt Ideal) := m ((c : Thread nD τ).loc main_arg0)
abbrev w1Arg (c : Dev nD) : (⟨S768x50176, .f32⟩ : BufTy).Contents (Elt Ideal) := m ((c : Thread nD τ).loc main_arg1)
abbrev b1Arg (c : Dev nD) : (⟨S768, .f32⟩ : BufTy).Contents (Elt Ideal) := m ((c : Thread nD τ).loc main_arg2)
abbrev w2Arg (c : Dev nD) : (⟨S5x768, .f32⟩ : BufTy).Contents (Elt Ideal) := m ((c : Thread nD τ).loc main_arg3)
abbrev b2Arg (c : Dev nD) : (⟨S5, .f32⟩ : BufTy).Contents (Elt Ideal) := m ((c : Thread nD τ).loc main_arg4)

/-- The second region's first operand is the first region's output array, reshaped. -/
theorem flat_entry_eq (c : Dev nD) :
    flatIn (F := Ideal) (E1 m) c = shapeCast S256x50176 (X1 m c main_v0) shapeCasts_S256x1024x7x7_S256x50176 := by
  show StableHlo.after hostOps1 (W1 m c) (Proc.devRef .tc main_v1) = _
  after_results; rfl

/-- Entry (b, q) of it is the scaled feature at channel q / 49, height q / 7 % 7, width q % 7 of batch row b. -/
theorem flat_entry (c : Dev nD) (b : Fin 256) (q : Fin 50176) :
    flatIn (F := Ideal) (E1 m) c (ix2 b q) = flat (featArg m c) b q := by
  rw [flat_entry_eq]
  refine (shapeCast_apply (X1 m c main_v0) shapeCasts_S256x1024x7x7_S256x50176 (ix2 b q) (ix4 b (chanOf q) (rowOf q) (colOf q)) ?_).trans ?_
  · show (S256x1024x7x7.rowMajor (ix4 b (chanOf q) (rowOf q) (colOf q))).val = (S256x50176.rowMajor (ix2 b q)).val
    rewrite [Shape.rowMajor_val_four, Shape.rowMajor_val_two]
    have hq := q.isLt
    show ((b.val * 1024 + q.val / 49) * 7 + q.val / 7 % 7) * 7 + q.val % 7 = b.val * 50176 + q.val
    omega
  · exact (congrFun (W1_arr m c 1) _).trans (pcam_array (E0 m) c b (chanOf q) (rowOf q) (colOf q))

/-- The two weight matrices reach the second region as launched. -/
theorem w1_entry (c : Dev nD) : w1In (F := Ideal) (E1 m) c = w1Arg m c :=
  (W2_of m c main_arg1 (by decide)).trans (W1_of_ne m c main_arg1 (by decide))
theorem w2_entry (c : Dev nD) : w2In (F := Ideal) (E1 m) c = w2Arg m c :=
  (W2_of m c main_arg3 (by decide)).trans (W1_of_ne m c main_arg3 (by decide))

/-- The two biases reach it as one row each. -/
theorem b1_entry_eq (c : Dev nD) :
    b1In (F := Ideal) (E1 m) c = shapeCast S1x768 (X1 m c main_arg2) shapeCasts_S768_S1x768 := by
  show StableHlo.after hostOps1 (W1 m c) (Proc.devRef .tc main_v2) = _
  after_results; rfl
theorem b1_entry (c : Dev nD) (k : Fin 768) : b1In (F := Ideal) (E1 m) c (ix2 (0 : Fin 1) k) = b1Arg m c (ix1 k) := by
  rw [b1_entry_eq]
  refine (shapeCast_apply (X1 m c main_arg2) shapeCasts_S768_S1x768 (ix2 (0 : Fin 1) k) (ix1 k) ?_).trans ?_
  · show (S768.rowMajor (ix1 k)).val = (S1x768.rowMajor (ix2 (0 : Fin 1) k)).val
    rewrite [Shape.rowMajor_val_one, Shape.rowMajor_val_two]
    show k.val = 0 * 768 + k.val
    omega
  · exact congrFun (W1_of_ne m c main_arg2 (by decide)) _
theorem b2_entry_eq (c : Dev nD) :
    b2In (F := Ideal) (E1 m) c = shapeCast S1x5 (X1 m c main_arg4) shapeCasts_S5_S1x5 := by
  show StableHlo.after hostOps1 (W1 m c) (Proc.devRef .tc main_v3) = _
  after_results; rfl
theorem b2_entry (c : Dev nD) (j : Fin 5) : b2In (F := Ideal) (E1 m) c (ix2 (0 : Fin 1) j) = b2Arg m c (ix1 j) := by
  rw [b2_entry_eq]
  refine (shapeCast_apply (X1 m c main_arg4) shapeCasts_S5_S1x5 (ix2 (0 : Fin 1) j) (ix1 j) ?_).trans ?_
  · show (S5.rowMajor (ix1 j)).val = (S1x5.rowMajor (ix2 (0 : Fin 1) j)).val
    rewrite [Shape.rowMajor_val_one, Shape.rowMajor_val_two]
    show j.val = 0 * 5 + j.val
    omega
  · exact congrFun (W1_of_ne m c main_arg4 (by decide)) _

/-- The result buffer at the end of the run holds the specification's function of the launch contents. -/
theorem program_value (c : Dev nD) :
    W3 m c (Proc.devRef .tc main_v4) = G (featArg m c) (w1Arg m c) (b1Arg m c) (w2Arg m c) (b2Arg m c) := by
  have h13 : 13 < cfg1.N := by rw [show cfg1.N = 14 from N_1]; decide
  refine (W3_arr m c 5).trans ?_
  funext i
  obtain ⟨b, j, rfl⟩ : ∃ (b : Fin 256) (j : Fin 5), i = ix2 b j := ⟨i 0, i 1, eq_ix2 i⟩
  rw [mm_array (E1 m) c h13 b j]
  show _ = Cert.Head.logit (featArg m c) (w1Arg m c) (b1Arg m c) (w2Arg m c) (b2Arg m c) b j
  unfold Cert.Head.logit Cert.Head.hidden Cert.Head.pre
  simp only [acc_value (E1 m) c h13, flat_entry m c, w1_entry m c, w2_entry m c, b1_entry m c, b2_entry m c]

end Cert.KernelIdeal.Hand

end
-- ==== Proof.RefRead.lean ====
/-
  The reference program read back: its run as one composed term of the argument arrays, and that term read one
  operation at a time at an index.
-/
import proofs.«124790_j42588895707592_1_alg».proof.Proof.Gen.ReferenceIdeal.Run
import proofs.«124790_j42588895707592_1_alg».proof.Proof.Gen.ReferenceIdeal.Read
-- ==== Proof.RefValue.lean ====
/-
  The reference's result, read one operation at a time at the ideal instance, is the specification's function of the
  five argument arrays.

  The one step that is not a reading at an index is the maximum over the two spatial axes: from negative infinity it is
  a fold of `max` over the set of feature indices that share a batch row and a channel, and that set is the image of
  the 49 pairs (height, width), so the fold is the supremum the specification names. Every other operation reads one
  element of each operand, and the composed index maps are identified with indices built from coordinates.
-/
import proofs.«124790_j42588895707592_1_alg».proof.Proof.Spec
import proofs.«124790_j42588895707592_1_alg».proof.Proof.RefRead
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The pattern of negative infinity is the least extended real. -/
theorem ofBits_neg_inf_f32 : Ideal.ofBits .f32 0xFF800000#32 = (⊥ : EReal) := by
  simp [Ideal.ofBits, Ideal.ieee]

/-- A fold of `max` from the least element over a finite set is the set's supremum. -/
theorem fold_max_bot_eq_sup {ι : Type} (S : Finset ι) (f : ι → EReal) :
    S.fold max (⊥ : EReal) f = S.sup f := rfl

/-- Dropping the two spatial coordinates of a feature index leaves its batch row and channel. -/
theorem drop_ix4 (b : Fin 256) (ch : Fin 1024) (h w : Fin 7) :
    reducesTo_S256x1024x7x7_S256x1024_d2_3.drop (ix4 b ch h w) = ix2 b ch :=
  funext fun a => Fin.ext (by
    match a with
    | ⟨0, _⟩ => exact reducesTo_S256x1024x7x7_S256x1024_d2_3.drop_apply_val_of_eq (ix4 b ch h w) 0 0
    | ⟨1, _⟩ => exact reducesTo_S256x1024x7x7_S256x1024_d2_3.drop_apply_val_of_eq (ix4 b ch h w) 1 1)

/-- The feature indices that drop to `(b, ch)` are the 49 spatial positions of that batch row and channel. -/
theorem filter_drop_eq_image (b : Fin 256) (ch : Fin 1024) :
    (Finset.univ.filter fun i : S256x1024x7x7.Idx => reducesTo_S256x1024x7x7_S256x1024_d2_3.drop i = ix2 b ch)
      = (Finset.univ : Finset (Fin 7 × Fin 7)).image fun p => ix4 b ch p.1 p.2 := by
  ext i
  simp only [Finset.mem_filter, Finset.mem_univ, true_and, Finset.mem_image]
  constructor
  · intro hi
    have h0 : (i 0).val = b.val := by
      rw [← reducesTo_S256x1024x7x7_S256x1024_d2_3.drop_apply_val_of_eq i 0 0, hi]
    have h1 : (i 1).val = ch.val := by
      rw [← reducesTo_S256x1024x7x7_S256x1024_d2_3.drop_apply_val_of_eq i 1 1, hi]
    have e0 : i 0 = b := Fin.ext h0
    have e1 : i 1 = ch := Fin.ext h1
    have e : i = ix4 b ch (i 2) (i 3) := (eq_ix4 i).trans (by rw [e0, e1] <;> rfl)
    exact ⟨(i 2, i 3), e.symm⟩
  · rintro ⟨p, rfl⟩
    exact drop_ix4 b ch p.1 p.2

/-- The reference's reduction over the two spatial axes from negative infinity is the channel maximum. -/
theorem v0_eq (x0 : (⟨S256x1024x7x7, .f32⟩ : BufTy).Contents (Elt Ideal)) (b : Fin 256) (ch : Fin 1024) :
    val_main_v0 (F := Ideal) x0 (ix2 b ch) = Cert.Head.chanMax x0 b ch := by
  unfold val_main_v0
  rw [Host.reduce_eq_fold, filter_drop_eq_image, val_main_cst_apply]
  show Finset.fold max (Ideal.ofBits .f32 0xFF800000#32) x0 _ = _
  rw [ofBits_neg_inf_f32, fold_max_bot_eq_sup, Finset.sup_image]
  rfl

/-- A position of a flattened row, split into channel, height and width. -/
theorem idx_v4_ix2 (b : Fin 256) (q : Fin 50176) :
    idx_main_v4 (ix2 b q) = ix4 b (Cert.Head.chanOf q) (Cert.Head.rowOf q) (Cert.Head.colOf q) :=
  funext fun a => Fin.ext (by
    have hb := b.isLt
    have hq := q.isLt
    match a with
    | ⟨0, _⟩ => show (b.val * 50176 + q.val) / 50176 = b.val; omega
    | ⟨1, _⟩ => show (b.val * 50176 + q.val) / 49 % 1024 = q.val / 49; omega
    | ⟨2, _⟩ => show (b.val * 50176 + q.val) / 7 % 7 = q.val / 7 % 7; omega
    | ⟨3, _⟩ => show (b.val * 50176 + q.val) % 7 = q.val % 7; omega)

/-- The two broadcasts of the channel maxima read them at the batch row and channel. -/
theorem idx_v1_v2_ix4 (b : Fin 256) (ch : Fin 1024) (h w : Fin 7) :
    idx_main_v1 (idx_main_v2 (ix4 b ch h w)) = ix2 b ch :=
  funext fun a => Fin.ext (by
    match a with
    | ⟨0, _⟩ => rfl
    | ⟨1, _⟩ => rfl)

/-- The reshaped scaled feature map is the specification's flattened row. -/
theorem v4_eq (x0 : (⟨S256x1024x7x7, .f32⟩ : BufTy).Contents (Elt Ideal)) (b : Fin 256) (q : Fin 50176) :
    val_main_v4 (F := Ideal) x0 (ix2 b q) = Cert.Head.flat x0 b q := by
  rw [val_main_v4_apply, idx_v4_ix2, val_main_v3_apply, val_main_v2_apply, val_main_v1_apply, idx_v1_v2_ix4, v0_eq]
  rfl

/-- The first contraction reads the flattened row against a row of the first weight matrix. -/
theorem lidx_v6_ix2 (b : Fin 256) (k : Fin 768) (q : Fin 50176) : lidx_main_v6 (ix2 b k) q = ix2 b q :=
  funext fun a => Fin.ext (by
    match a with
    | ⟨0, _⟩ => rfl
    | ⟨1, _⟩ => rfl)

theorem idx_v5_ridx_v6_ix2 (b : Fin 256) (k : Fin 768) (q : Fin 50176) :
    idx_main_v5 (ridx_main_v6 (ix2 b k) q) = ix2 k q :=
  funext fun a => Fin.ext (by
    match a with
    | ⟨0, _⟩ => rfl
    | ⟨1, _⟩ => rfl)

/-- The first contraction is the specification's. -/
theorem v6_eq (x0 : (⟨S256x1024x7x7, .f32⟩ : BufTy).Contents (Elt Ideal)) (x1 : (⟨S768x50176, .f32⟩ : BufTy).Contents (Elt Ideal))
    (b : Fin 256) (k : Fin 768) :
    val_main_v6 (F := Ideal) x0 x1 (ix2 b k) = Cert.Head.pre x0 x1 b k := by
  rw [val_main_v6_apply]
  unfold Cert.Head.pre
  refine Finset.sum_congr rfl fun q _ => ?_
  rw [lidx_v6_ix2, v4_eq, val_main_v5_apply, idx_v5_ridx_v6_ix2]

theorem idx_v7_v8_ix2 (b : Fin 256) (k : Fin 768) : idx_main_v7 (idx_main_v8 (ix2 b k)) = ix1 k :=
  funext fun a => Fin.ext (by
    match a with
    | ⟨0, _⟩ => rfl)

/-- The first layer with its bias, cut off below at zero, is the specification's hidden unit. -/
theorem v10_eq (x0 : (⟨S256x1024x7x7, .f32⟩ : BufTy).Contents (Elt Ideal)) (x1 : (⟨S768x50176, .f32⟩ : BufTy).Contents (Elt Ideal))
    (x2 : (⟨S768, .f32⟩ : BufTy).Contents (Elt Ideal)) (b : Fin 256) (k : Fin 768) :
    val_main_v10 (F := Ideal) x0 x1 x2 (ix2 b k) = Cert.Head.hidden x0 x1 x2 b k := by
  rw [val_main_v10_apply, val_main_v9_apply, v6_eq, val_main_v8_apply, val_main_v7_apply, idx_v7_v8_ix2,
    val_main_call0_v0_apply, val_main_call0_cst_apply]
  show max (Cert.Head.pre x0 x1 b k + x2 (ix1 k)) (Ideal.ofBits .f32 0x00000000#32) = _
  rw [Ideal.ofBits_zero_f32]
  rfl

theorem lidx_v12_ix2 (b : Fin 256) (j : Fin 5) (k : Fin 768) : lidx_main_v12 (ix2 b j) k = ix2 b k :=
  funext fun a => Fin.ext (by
    match a with
    | ⟨0, _⟩ => rfl
    | ⟨1, _⟩ => rfl)

theorem idx_v11_ridx_v12_ix2 (b : Fin 256) (j : Fin 5) (k : Fin 768) :
    idx_main_v11 (ridx_main_v12 (ix2 b j) k) = ix2 j k :=
  funext fun a => Fin.ext (by
    match a with
    | ⟨0, _⟩ => rfl
    | ⟨1, _⟩ => rfl)

theorem idx_v13_v14_ix2 (b : Fin 256) (j : Fin 5) : idx_main_v13 (idx_main_v14 (ix2 b j)) = ix1 j :=
  funext fun a => Fin.ext (by
    match a with
    | ⟨0, _⟩ => rfl)

/-- The reference's last stage is the specification. -/
theorem ref_eq_G (x0 : (⟨S256x1024x7x7, .f32⟩ : BufTy).Contents (Elt Ideal)) (x1 : (⟨S768x50176, .f32⟩ : BufTy).Contents (Elt Ideal))
    (x2 : (⟨S768, .f32⟩ : BufTy).Contents (Elt Ideal)) (x3 : (⟨S5x768, .f32⟩ : BufTy).Contents (Elt Ideal))
    (x4 : (⟨S5, .f32⟩ : BufTy).Contents (Elt Ideal)) :
    val_main_v15 (F := Ideal) x0 x1 x2 x3 x4 = Cert.Head.G x0 x1 x2 x3 x4 := by
  funext i
  obtain ⟨b, j, rfl⟩ : ∃ (b : Fin 256) (j : Fin 5), i = ix2 b j := ⟨i 0, i 1, eq_ix2 i⟩
  show _ = Cert.Head.logit x0 x1 x2 x3 x4 b j
  rw [val_main_v15_apply, val_main_v12_apply, val_main_v14_apply, val_main_v13_apply, idx_v13_v14_ix2]
  unfold Cert.Head.logit
  show (∑ k : Fin 768, _) + _ = _
  refine congrArg (fun s : EReal => s + x4 (ix1 j)) (Finset.sum_congr rfl fun k _ => ?_)
  rw [lidx_v12_ix2, v10_eq, val_main_v11_apply, idx_v11_ridx_v12_ix2]

end Cert.ReferenceIdeal.RefValue

end
-- ==== Proof.lean ====
/-
  The certificate assembled. The kernel's program is two pipelined regions around three host reshapes: the first scales
  every 7 x 7 spatial slab of the feature map by its own largest entry, the second contracts the flattened result with
  the first weight matrix 3584 positions at a time into a scratch buffer kept across its 14 grid points and, at the
  last point, adds the bias, cuts off below at zero, contracts with the second weight matrix and adds the second bias.
  The reference does the same in one piece. Both frames of the kernel's program come from one run of the program,
  stated for any float instance, whose end names every unscoped buffer's contents; read at the ideal instance the same
  run gives the result buffer as the specification's function of the arguments, which is also what the reference's
  generated run computes. The two sides differ only in how the sum over the 50176 positions is grouped and in taking
  the largest of 49 entries in one step or in two, so no entry need be finite and the precondition is never opened.
-/
import proofs.«124790_j42588895707592_1_alg».proof.Defs
import proofs.«124790_j42588895707592_1_alg».proof.Proof.Gen.Kernel
import proofs.«124790_j42588895707592_1_alg».proof.Proof.Gen.KernelIdeal
import proofs.«124790_j42588895707592_1_alg».proof.Proof.Gen.ReferenceIdeal
import proofs.«124790_j42588895707592_1_alg».proof.Proof.Gen.Pre_finite_inputs
import proofs.«124790_j42588895707592_1_alg».proof.Proof.Bits.Kept
import proofs.«124790_j42588895707592_1_alg».proof.Proof.Kept
import proofs.«124790_j42588895707592_1_alg».proof.Proof.Final
import proofs.«124790_j42588895707592_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Hand.program_frame (F := Bits) m ρ

/-- So does the idealized program. -/
theorem frame_kernelIdeal : Cert.frame_KernelIdeal := fun m ρ _ => Cert.KernelIdeal.Hand.program_frame (F := Ideal) m ρ

/-- The reference's frame is its generated run with the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- At the ideal instance, from memories agreeing on the arguments, both programs end with the result buffer at the
    specification's function of the arguments and with the first argument as launched. -/
theorem algebraic : Cert.algebraic_KernelIdeal_ReferenceIdeal := by
  intro m ρ m' ρ' _ hagree
  refine ⟨fun c => Cert.Head.G (Cert.KernelIdeal.Hand.featArg m c) (Cert.KernelIdeal.Hand.w1Arg m c) (Cert.KernelIdeal.Hand.b1Arg m c)
      (Cert.KernelIdeal.Hand.w2Arg m c) (Cert.KernelIdeal.Hand.b2Arg m c),
    fun c => m ((c.tc : Thread Cert.KernelIdeal.nD Cert.KernelIdeal.τ).loc Cert.KernelIdeal.main_arg0), ?_, ?_⟩
  · refine (θ_run Cert.KernelIdeal.defs _ _).mono (fun r h c => ?_) (Cert.KernelIdeal.Hand.program_run (F := Ideal) m ρ)
    exact ⟨(h c _ (Cert.KernelIdeal.Hand.held_ref Cert.KernelIdeal.main_v4 (by decide))).trans (Cert.KernelIdeal.Hand.program_value m c),
      (h c _ (Cert.KernelIdeal.Hand.held_ref Cert.KernelIdeal.main_arg0 (by decide))).trans (Cert.KernelIdeal.Hand.W3_main_arg0 m c),
      (h c _ (Cert.KernelIdeal.Hand.held_ref Cert.KernelIdeal.main_arg0 (by decide))).trans (Cert.KernelIdeal.Hand.W3_main_arg0 m c),
      (h c _ (Cert.KernelIdeal.Hand.held_ref Cert.KernelIdeal.main_arg1 (by decide))).trans (Cert.KernelIdeal.Hand.W3_main_arg1 m c),
      (h c _ (Cert.KernelIdeal.Hand.held_ref Cert.KernelIdeal.main_arg2 (by decide))).trans (Cert.KernelIdeal.Hand.W3_main_arg2 m c),
      (h c _ (Cert.KernelIdeal.Hand.held_ref Cert.KernelIdeal.main_arg3 (by decide))).trans (Cert.KernelIdeal.Hand.W3_main_arg3 m c),
      (h c _ (Cert.KernelIdeal.Hand.held_ref Cert.KernelIdeal.main_arg4 (by decide))).trans (Cert.KernelIdeal.Hand.W3_main_arg4 m c)⟩
  · refine (θ_run Cert.ReferenceIdeal.defs _ _).mono (fun r h c => ?_) (Cert.ReferenceIdeal.Value.run (F := Ideal) m' ρ')
    obtain ⟨h15, h0, h0', h1, h2, h3, h4⟩ := h c
    refine ⟨?_, ?_, h0', h1, h2, h3, h4⟩
    · refine h15.trans ((Cert.ReferenceIdeal.Read.val_main_v15_eq _ _ _ _ _).trans ((Cert.ReferenceIdeal.RefValue.ref_eq_G _ _ _ _ _).trans ?_))
      rw [(hagree c).1, (hagree c).2.1, (hagree c).2.2.1, (hagree c).2.2.2.1, (hagree c).2.2.2.2]
    · exact h0.trans (hagree c).1

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
